-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S64 : Shape := ⟨1, ![64]⟩
abbrev S4x1x256x1x1 : Shape := ⟨5, ![4, 1, 256, 1, 1]⟩
abbrev S4x1x1x28x28 : Shape := ⟨5, ![4, 1, 1, 28, 28]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S4x1x256x1x1 : S_.BroadcastsInDim S4x1x256x1x1 (![] : Fin 0 → Fin S4x1x256x1x1.rank)
  reducesTo_S4x1x256x1x1_S_d0_1_2_3_4 : S4x1x256x1x1.ReducesTo [0, 1, 2, 3, 4] S_
  bcast_S_S4x1x1x28x28 : S_.BroadcastsInDim S4x1x1x28x28 (![] : Fin 0 → Fin S4x1x1x28x28.rank)
  reducesTo_S4x1x1x28x28_S_d0_1_2_3_4 : S4x1x1x28x28.ReducesTo [0, 1, 2, 3, 4] S_

variable [Facts]

def fn {F : FTy → Type} [FloatOps F] (main_arg0 : FVec F S64x256x56x56 .f32) (main_arg1 : IVec S64 32) (main_arg2 : FVec F S4x1x256x1x1 .f32) (main_arg3 : FVec F S4x1x1x28x28 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S4x1x256x1x1 .f32 := Host.absf main_arg2
  let main_cst_0 : FVec F S_ .f32 := constant S_ .f32 0x7F800000#32
  let main_v5 : FVec F S4x1x256x1x1 .f32 := broadcastInDim S4x1x256x1x1 ![] bcast_S_S4x1x256x1x1 main_cst_0
  let main_v6 : IVec S4x1x256x1x1 1 := cmpf .olt main_v4 main_v5
  let main_c_1 : IVec S_ 1 := constantI S_ 1 1#1
  let main_v7 : IVec S_ 1 := (fun x v => Host.reduce IntOp.andi x v reducesTo_S4x1x256x1x1_S_d0_1_2_3_4 h_S_) main_v6 main_c_1
  let main_v8 : IVec S_ 1 := andi main_v3 main_v7
  let main_v9 : FVec F S4x1x1x28x28 .f32 := Host.absf main_arg3
  let main_cst_2 : FVec F S_ .f32 := constant S_ .f32 0x7F800000#32
  let main_v10 : FVec F S4x1x1x28x28 .f32 := broadcastInDim S4x1x1x28x28 ![] bcast_S_S4x1x1x28x28 main_cst_2
  let main_v11 : IVec S4x1x1x28x28 1 := cmpf .olt main_v9 main_v10
  let main_c_3 : IVec S_ 1 := constantI S_ 1 1#1
  let main_v12 : IVec S_ 1 := (fun x v => Host.reduce IntOp.andi x v reducesTo_S4x1x1x28x28_S_d0_1_2_3_4 h_S_) main_v11 main_c_3
  let main_v13 : IVec S_ 1 := andi main_v8 main_v12
  main_v13
-- ==== Kernel.lean ====
abbrev S64x256x56x56 : Shape := ⟨4, ![64, 256, 56, 56]⟩
abbrev S64 : Shape := ⟨1, ![64]⟩
abbrev S4x1x256x1x1 : Shape := ⟨5, ![4, 1, 256, 1, 1]⟩
abbrev S4x1x1x28x28 : Shape := ⟨5, ![4, 1, 1, 28, 28]⟩
abbrev S_ : Shape := ⟨0, ![]⟩
abbrev S56 : Shape := ⟨1, ![56]⟩
abbrev S56x1 : Shape := ⟨2, ![56, 1]⟩
abbrev S1x56 : Shape := ⟨2, ![1, 56]⟩
abbrev S56x56 : Shape := ⟨2, ![56, 56]⟩
abbrev S56x56x1 : Shape := ⟨3, ![56, 56, 1]⟩
abbrev S56x56x2 : Shape := ⟨3, ![56, 56, 2]⟩
abbrev S4x1x1x56x56 : Shape := ⟨5, ![4, 1, 1, 56, 56]⟩
abbrev S64x1 : Shape := ⟨2, ![64, 1]⟩
abbrev S64x2 : Shape := ⟨2, ![64, 2]⟩
abbrev S64x256x1x1 : Shape := ⟨4, ![64, 256, 1, 1]⟩
abbrev S64x1x56x56 : Shape := ⟨4, ![64, 1, 56, 56]⟩
abbrev S2x256x56x56 : Shape := ⟨4, ![2, 256, 56, 56]⟩
abbrev S2x256x1x1 : Shape := ⟨4, ![2, 256, 1, 1]⟩
abbrev S2x1x56x56 : Shape := ⟨4, ![2, 1, 56, 56]⟩

abbrev nBuf : Space → Nat
  | .hbm => 115
  | .vmem => 8
  | .smem => 0
  | _ => 0

abbrev bufTy : (tb : Table) → Fin (tcTables nBuf tb) → BufTy
  | .hbm, ⟨0, _⟩ => ⟨S64x256x56x56, .f32⟩
  | .hbm, ⟨1, _⟩ => ⟨S64, .i32⟩
  | .hbm, ⟨2, _⟩ => ⟨S4x1x256x1x1, .f32⟩
  | .hbm, ⟨3, _⟩ => ⟨S4x1x1x28x28, .f32⟩
  | .hbm, ⟨4, _⟩ => ⟨S4x1x256x1x1, .f32⟩
  | .hbm, ⟨5, _⟩ => ⟨S4x1x256x1x1, .f32⟩
  | .hbm, ⟨6, _⟩ => ⟨S_, .f32⟩
  | .hbm, ⟨7, _⟩ => ⟨S4x1x256x1x1, .f32⟩
  | .hbm, ⟨8, _⟩ => ⟨S4x1x256x1x1, .f32⟩
  | .hbm, ⟨9, _⟩ => ⟨S_, .f32⟩
  | .hbm, ⟨10, _⟩ => ⟨S4x1x256x1x1, .f32⟩
  | .hbm, ⟨11, _⟩ => ⟨S4x1x256x1x1, .f32⟩
  | .hbm, ⟨12, _⟩ => ⟨S4x1x1x28x28, .f32⟩
  | .hbm, ⟨13, _⟩ => ⟨S4x1x1x28x28, .f32⟩
  | .hbm, ⟨14, _⟩ => ⟨S_, .f32⟩
  | .hbm, ⟨15, _⟩ => ⟨S4x1x1x28x28, .f32⟩
  | .hbm, ⟨16, _⟩ => ⟨S4x1x1x28x28, .f32⟩
  | .hbm, ⟨17, _⟩ => ⟨S_, .f32⟩
  | .hbm, ⟨18, _⟩ => ⟨S4x1x1x28x28, .f32⟩
  | .hbm, ⟨19, _⟩ => ⟨S4x1x1x28x28, .f32⟩
  | .hbm, ⟨20, _⟩ => ⟨S56, .i32⟩
  | .hbm, ⟨21, _⟩ => ⟨S_, .i32⟩
  | .hbm, ⟨22, _⟩ => ⟨S56, .i32⟩
  | .hbm, ⟨23, _⟩ => ⟨S56, .i32⟩
  | .hbm, ⟨24, _⟩ => ⟨S_, .i32⟩
  | .hbm, ⟨25, _⟩ => ⟨S_, .i32⟩
  | .hbm, ⟨26, _⟩ => ⟨S56, .i32⟩
  | .hbm, ⟨27, _⟩ => ⟨S56, .i32⟩
  | .hbm, ⟨28, _⟩ => ⟨S56, .i32⟩
  | .hbm, ⟨29, _⟩ => ⟨S_, .i32⟩
  | .hbm, ⟨30, _⟩ => ⟨S56, .i32⟩
  | .hbm, ⟨31, _⟩ => ⟨S56, .i1⟩
  | .hbm, ⟨32, _⟩ => ⟨S56, .i32⟩
  | .hbm, ⟨33, _⟩ => ⟨S56, .i32⟩
  | .hbm, ⟨34, _⟩ => ⟨S_, .i32⟩
  | .hbm, ⟨35, _⟩ => ⟨S56, .i32⟩
  | .hbm, ⟨36, _⟩ => ⟨S56, .i1⟩
  | .hbm, ⟨37, _⟩ => ⟨S56, .i1⟩
  | .hbm, ⟨38, _⟩ => ⟨S_, .i32⟩
  | .hbm, ⟨39, _⟩ => ⟨S56, .i32⟩
  | .hbm, ⟨40, _⟩ => ⟨S56, .i32⟩
  | .hbm, ⟨41, _⟩ => ⟨S56, .i32⟩
  | .hbm, ⟨42, _⟩ => ⟨S56, .i32⟩
  | .hbm, ⟨43, _⟩ => ⟨S_, .i32⟩
  | .hbm, ⟨44, _⟩ => ⟨S56, .i32⟩
  | .hbm, ⟨45, _⟩ => ⟨S56, .i32⟩
  | .hbm, ⟨46, _⟩ => ⟨S_, .i32⟩
  | .hbm, ⟨47, _⟩ => ⟨S_, .i32⟩
  | .hbm, ⟨48, _⟩ => ⟨S56, .i32⟩
  | .hbm, ⟨49, _⟩ => ⟨S56, .i32⟩
  | .hbm, ⟨50, _⟩ => ⟨S56, .i32⟩
  | .hbm, ⟨51, _⟩ => ⟨S_, .i32⟩
  | .hbm, ⟨52, _⟩ => ⟨S56, .i32⟩
  | .hbm, ⟨53, _⟩ => ⟨S56, .i1⟩
  | .hbm, ⟨54, _⟩ => ⟨S56, .i32⟩
  | .hbm, ⟨55, _⟩ => ⟨S56, .i32⟩
  | .hbm, ⟨56, _⟩ => ⟨S_, .i32⟩
  | .hbm, ⟨57, _⟩ => ⟨S56, .i32⟩
  | .hbm, ⟨58, _⟩ => ⟨S56, .i1⟩
  | .hbm, ⟨59, _⟩ => ⟨S56, .i1⟩
  | .hbm, ⟨60, _⟩ => ⟨S_, .i32⟩
  | .hbm, ⟨61, _⟩ => ⟨S56, .i32⟩
  | .hbm, ⟨62, _⟩ => ⟨S56, .i32⟩
  | .hbm, ⟨63, _⟩ => ⟨S56, .i32⟩
  | .hbm, ⟨64, _⟩ => ⟨S56x1, .i32⟩
  | .hbm, ⟨65, _⟩ => ⟨S1x56, .i32⟩
  | .hbm, ⟨66, _⟩ => ⟨S_, .i32⟩
  | .hbm, ⟨67, _⟩ => ⟨S56x1, .i32⟩
  | .hbm, ⟨68, _⟩ => ⟨S56x1, .i1⟩
  | .hbm, ⟨69, _⟩ => ⟨S_, .i32⟩
  | .hbm, ⟨70, _⟩ => ⟨S56x1, .i32⟩
  | .hbm, ⟨71, _⟩ => ⟨S56x1, .i32⟩
  | .hbm, ⟨72, _⟩ => ⟨S56x1, .i32⟩
  | .hbm, ⟨73, _⟩ => ⟨S_, .i32⟩
  | .hbm, ⟨74, _⟩ => ⟨S1x56, .i32⟩
  | .hbm, ⟨75, _⟩ => ⟨S1x56, .i1⟩
  | .hbm, ⟨76, _⟩ => ⟨S_, .i32⟩
  | .hbm, ⟨77, _⟩ => ⟨S1x56, .i32⟩
  | .hbm, ⟨78, _⟩ => ⟨S1x56, .i32⟩
  | .hbm, ⟨79, _⟩ => ⟨S1x56, .i32⟩
  | .hbm, ⟨80, _⟩ => ⟨S56x56, .i32⟩
  | .hbm, ⟨81, _⟩ => ⟨S56x56, .i32⟩
  | .hbm, ⟨82, _⟩ => ⟨S56x56x1, .i32⟩
  | .hbm, ⟨83, _⟩ => ⟨S56x56x1, .i32⟩
  | .hbm, ⟨84, _⟩ => ⟨S56x56x2, .i32⟩
  | .hbm, ⟨85, _⟩ => ⟨S4x1x1x56x56, .f32⟩
  | .hbm, ⟨86, _⟩ => ⟨S_, .i32⟩
  | .hbm, ⟨87, _⟩ => ⟨S64, .i32⟩
  | .hbm, ⟨88, _⟩ => ⟨S64, .i1⟩
  | .hbm, ⟨89, _⟩ => ⟨S_, .i32⟩
  | .hbm, ⟨90, _⟩ => ⟨S64, .i32⟩
  | .hbm, ⟨91, _⟩ => ⟨S64, .i32⟩
  | .hbm, ⟨92, _⟩ => ⟨S64, .i32⟩
  | .hbm, ⟨93, _⟩ => ⟨S_, .i32⟩
  | .hbm, ⟨94, _⟩ => ⟨S64, .i32⟩
  | .hbm, ⟨95, _⟩ => ⟨S64, .i32⟩
  | .hbm, ⟨96, _⟩ => ⟨S64x1, .i32⟩
  | .hbm, ⟨97, _⟩ => ⟨S64x1, .i32⟩
  | .hbm, ⟨98, _⟩ => ⟨S64x2, .i32⟩
  | .hbm, ⟨99, _⟩ => ⟨S64x256x1x1, .f32⟩
  | .hbm, ⟨100, _⟩ => ⟨S_, .i32⟩
  | .hbm, ⟨101, _⟩ => ⟨S64, .i32⟩
  | .hbm, ⟨102, _⟩ => ⟨S64, .i1⟩
  | .hbm, ⟨103, _⟩ => ⟨S_, .i32⟩
  | .hbm, ⟨104, _⟩ => ⟨S64, .i32⟩
  | .hbm, ⟨105, _⟩ => ⟨S64, .i32⟩
  | .hbm, ⟨106, _⟩ => ⟨S64, .i32⟩
  | .hbm, ⟨107, _⟩ => ⟨S_, .i32⟩
  | .hbm, ⟨108, _⟩ => ⟨S64, .i32⟩
  | .hbm, ⟨109, _⟩ => ⟨S64, .i32⟩
  | .hbm, ⟨110, _⟩ => ⟨S64x1, .i32⟩
  | .hbm, ⟨111, _⟩ => ⟨S64x1, .i32⟩
  | .hbm, ⟨112, _⟩ => ⟨S64x2, .i32⟩
  | .hbm, ⟨113, _⟩ => ⟨S64x1x56x56, .f32⟩
  | .hbm, ⟨114, _⟩ => ⟨S64x256x56x56, .f32⟩
  | .local _ .vmem, ⟨0, _⟩ => ⟨S2x256x56x56, .f32⟩
  | .local _ .vmem, ⟨1, _⟩ => ⟨S2x256x56x56, .f32⟩
  | .local _ .vmem, ⟨2, _⟩ => ⟨S2x256x1x1, .f32⟩
  | .local _ .vmem, ⟨3, _⟩ => ⟨S2x256x1x1, .f32⟩
  | .local _ .vmem, ⟨4, _⟩ => ⟨S2x1x56x56, .f32⟩
  | .local _ .vmem, ⟨5, _⟩ => ⟨S2x1x56x56, .f32⟩
  | .local _ .vmem, ⟨6, _⟩ => ⟨S2x256x56x56, .f32⟩
  | .local _ .vmem, ⟨7, _⟩ => ⟨S2x256x56x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_c_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_c_6 : Ref sig .tc := ⟨.hbm, 66, rfl⟩
abbrev main_v22 : Ref sig .tc := ⟨.hbm, 67, rfl⟩
abbrev main_v23 : Ref sig .tc := ⟨.hbm, 68, rfl⟩
abbrev main_c_7 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_c_8 : Ref sig .tc := ⟨.hbm, 73, rfl⟩
abbrev main_v27 : Ref sig .tc := ⟨.hbm, 74, rfl⟩
abbrev main_v28 : Ref sig .tc := ⟨.hbm, 75, rfl⟩
abbrev main_c_9 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_c_10 : Ref sig .tc := ⟨.hbm, 86, rfl⟩
abbrev main_v38 : Ref sig .tc := ⟨.hbm, 87, rfl⟩
abbrev main_v39 : Ref sig .tc := ⟨.hbm, 88, rfl⟩
abbrev main_c_11 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_c_12 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_c_13 : Ref sig .tc := ⟨.hbm, 100, rfl⟩
abbrev main_v49 : Ref sig .tc := ⟨.hbm, 101, rfl⟩
abbrev main_v50 : Ref sig .tc := ⟨.hbm, 102, rfl⟩
abbrev main_c_14 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_c_15 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x56x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x56x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4x1x256x1x1 : S_.BroadcastsInDim S4x1x256x1x1 (![] : Fin 0 → Fin S4x1x256x1x1.rank)
  bcast_S_S4x1x1x28x28 : S_.BroadcastsInDim S4x1x1x28x28 (![] : Fin 0 → Fin S4x1x1x28x28.rank)
  bcast_S_S56 : S_.BroadcastsInDim S56 (![] : Fin 0 → Fin S56.rank)
  bcast_S56_S56x1_0 : S56.BroadcastsInDim S56x1 (![0] : Fin 1 → Fin S56x1.rank)
  bcast_S56_S1x56_1 : S56.BroadcastsInDim S1x56 (![1] : Fin 1 → Fin S1x56.rank)
  bcast_S_S56x1 : S_.BroadcastsInDim S56x1 (![] : Fin 0 → Fin S56x1.rank)
  bcast_S_S1x56 : S_.BroadcastsInDim S1x56 (![] : Fin 0 → Fin S1x56.rank)
  bcast_S56x1_S56x56_0_1 : S56x1.BroadcastsInDim S56x56 (![0, 1] : Fin 2 → Fin S56x56.rank)
  bcast_S1x56_S56x56_0_1 : S1x56.BroadcastsInDim S56x56 (![0, 1] : Fin 2 → Fin S56x56.rank)
  bcast_S56x56_S56x56x1_0_1 : S56x56.BroadcastsInDim S56x56x1 (![0, 1] : Fin 2 → Fin S56x56x1.rank)
  concatenates_S56x56x1_S56x56x1_S56x56x2_d2 : Shape.Concatenates [S56x56x1, S56x56x1] S56x56x2 2
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  inb_S2x256x56x56_S2x256x56x56_0_0_0_0 : ∀ a, (![0, 0, 0, 0] : Fin 4 → Nat) a + S2x256x56x56.size a ≤ S2x256x56x56.size a
  h_S2x256x56x56 : 0 < S2x256x56x56.numel
  inb_S2x256x1x1_S2x256x1x1_0_0_0_0 : ∀ a, (![0, 0, 0, 0] : Fin 4 → Nat) a + S2x256x1x1.size a ≤ S2x256x1x1.size a
  h_S2x256x1x1 : 0 < S2x256x1x1.numel
  shapeCasts_S2x256x1x1_S2x256x1x1 : S2x256x1x1.ShapeCasts S2x256x1x1
  broadcasts_S2x256x1x1_S2x256x56x56 : S2x256x1x1.Broadcasts S2x256x56x56
  inb_S2x1x56x56_S2x1x56x56_0_0_0_0 : ∀ a, (![0, 0, 0, 0] : Fin 4 → Nat) a + S2x1x56x56.size a ≤ S2x1x56x56.size a
  h_S2x1x56x56 : 0 < S2x1x56x56.numel
  shapeCasts_S2x1x56x56_S2x1x56x56 : S2x1x56x56.ShapeCasts S2x1x56x56
  broadcasts_S2x1x56x56_S2x256x56x56 : S2x1x56x56.Broadcasts S2x256x56x56
  gather_S4x1x1x28x28_S56x56x2_S4x1x1x56x56_012_34_n_n_34_2_41111_wf : GatherDims.WF S4x1x1x28x28 S56x56x2 S4x1x1x56x56 [0, 1, 2] [3, 4] [] [3, 4] [] 2 ![4, 1, 1, 1, 1]
  gather_S4x1x256x1x1_S64x2_S64x256x1x1_123_01_n_n_01_1_1125611_wf : GatherDims.WF S4x1x256x1x1 S64x2 S64x256x1x1 [1, 2, 3] [0, 1] [] [0, 1] [] 1 ![1, 1, 256, 1, 1]
  gather_S4x1x1x56x56_S64x2_S64x1x56x56_123_01_n_n_01_1_1115656_wf : GatherDims.WF S4x1x1x56x56 S64x2 S64x1x56x56 [1, 2, 3] [0, 1] [] [0, 1] [] 1 ![1, 1, 1, 56, 56]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x56x56.size a ≤ S64x256x56x56.size a
  hwx0_0 : ∀ i : grid0.Coords, EltTy.bits .f32 = 32 ∨ (Rect.block (s := S64x256x56x56) S2x256x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x1x1.size a ≤ S64x256x1x1.size a
  hwx0_1 : ∀ i : grid0.Coords, EltTy.bits .f32 = 32 ∨ (Rect.block (s := S64x256x1x1) S2x256x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x56x56.size a ≤ S64x1x56x56.size a
  hwx0_2 : ∀ i : grid0.Coords, EltTy.bits .f32 = 32 ∨ (Rect.block (s := S64x1x56x56) S2x1x56x56.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x256x56x56.size a ≤ S64x256x56x56.size a
  hwx0_3 : ∀ i : grid0.Coords, EltTy.bits .f32 = 32 ∨ (Rect.block (s := S64x256x56x56) S2x256x56x56.size (cc0_transform_3 i) (hinb0_3 i)).WholeWords (EltTy.packing .f32)

variable [Facts₀]

def gather_S4x1x1x28x28_S56x56x2_S4x1x1x56x56_012_34_n_n_34_2_41111 : GatherDims S4x1x1x28x28 S56x56x2 S4x1x1x56x56 where
  offsetDims := [0, 1, 2]
  collapsedSliceDims := [3, 4]
  operandBatchingDims := []
  startIndicesBatchingDims := []
  startIndexMap := [3, 4]
  indexVectorDim := 2
  sliceSizes := ![4, 1, 1, 1, 1]
  wf := gather_S4x1x1x28x28_S56x56x2_S4x1x1x56x56_012_34_n_n_34_2_41111_wf
def gather_S4x1x256x1x1_S64x2_S64x256x1x1_123_01_n_n_01_1_1125611 : GatherDims S4x1x256x1x1 S64x2 S64x256x1x1 where
  offsetDims := [1, 2, 3]
  collapsedSliceDims := [0, 1]
  operandBatchingDims := []
  startIndicesBatchingDims := []
  startIndexMap := [0, 1]
  indexVectorDim := 1
  sliceSizes := ![1, 1, 256, 1, 1]
  wf := gather_S4x1x256x1x1_S64x2_S64x256x1x1_123_01_n_n_01_1_1125611_wf
def gather_S4x1x1x56x56_S64x2_S64x1x56x56_123_01_n_n_01_1_1115656 : GatherDims S4x1x1x56x56 S64x2 S64x1x56x56 where
  offsetDims := [1, 2, 3]
  collapsedSliceDims := [0, 1]
  operandBatchingDims := []
  startIndicesBatchingDims := []
  startIndexMap := [0, 1]
  indexVectorDim := 1
  sliceSizes := ![1, 1, 1, 56, 56]
  wf := gather_S4x1x1x56x56_S64x2_S64x1x56x56_123_01_n_n_01_1_1115656_wf

abbrev win0_0 : Pipeline.Window sig grid0 :=
  Pipeline.Window.ofSpec (Memref.whole main_arg0) S2x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S2x256x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S2x1x56x56.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v60) S2x256x56x56.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S64 : Shape := ⟨1, ![64]⟩
abbrev S4x1x256x1x1 : Shape := ⟨5, ![4, 1, 256, 1, 1]⟩
abbrev S4x1x1x28x28 : Shape := ⟨5, ![4, 1, 1, 28, 28]⟩
abbrev S_ : Shape := ⟨0, ![]⟩
abbrev S56 : Shape := ⟨1, ![56]⟩
abbrev S56x1 : Shape := ⟨2, ![56, 1]⟩
abbrev S1x56 : Shape := ⟨2, ![1, 56]⟩
abbrev S56x56 : Shape := ⟨2, ![56, 56]⟩
abbrev S56x56x1 : Shape := ⟨3, ![56, 56, 1]⟩
abbrev S56x56x2 : Shape := ⟨3, ![56, 56, 2]⟩
abbrev S4x1x1x56x56 : Shape := ⟨5, ![4, 1, 1, 56, 56]⟩
abbrev S64x1 : Shape := ⟨2, ![64, 1]⟩
abbrev S64x2 : Shape := ⟨2, ![64, 2]⟩
abbrev S64x256x1x1 : Shape := ⟨4, ![64, 256, 1, 1]⟩
abbrev S64x1x56x56 : Shape := ⟨4, ![64, 1, 56, 56]⟩

abbrev nBuf : Space → Nat
  | .hbm => 118
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S64, .i32⟩
  | .hbm, ⟨2, _⟩ => ⟨S4x1x256x1x1, .f32⟩
  | .hbm, ⟨3, _⟩ => ⟨S4x1x1x28x28, .f32⟩
  | .hbm, ⟨4, _⟩ => ⟨S4x1x256x1x1, .f32⟩
  | .hbm, ⟨5, _⟩ => ⟨S4x1x256x1x1, .f32⟩
  | .hbm, ⟨6, _⟩ => ⟨S_, .f32⟩
  | .hbm, ⟨7, _⟩ => ⟨S4x1x256x1x1, .f32⟩
  | .hbm, ⟨8, _⟩ => ⟨S4x1x256x1x1, .f32⟩
  | .hbm, ⟨9, _⟩ => ⟨S_, .f32⟩
  | .hbm, ⟨10, _⟩ => ⟨S4x1x256x1x1, .f32⟩
  | .hbm, ⟨11, _⟩ => ⟨S4x1x256x1x1, .f32⟩
  | .hbm, ⟨12, _⟩ => ⟨S4x1x1x28x28, .f32⟩
  | .hbm, ⟨13, _⟩ => ⟨S4x1x1x28x28, .f32⟩
  | .hbm, ⟨14, _⟩ => ⟨S_, .f32⟩
  | .hbm, ⟨15, _⟩ => ⟨S4x1x1x28x28, .f32⟩
  | .hbm, ⟨16, _⟩ => ⟨S4x1x1x28x28, .f32⟩
  | .hbm, ⟨17, _⟩ => ⟨S_, .f32⟩
  | .hbm, ⟨18, _⟩ => ⟨S4x1x1x28x28, .f32⟩
  | .hbm, ⟨19, _⟩ => ⟨S4x1x1x28x28, .f32⟩
  | .hbm, ⟨20, _⟩ => ⟨S56, .i32⟩
  | .hbm, ⟨21, _⟩ => ⟨S_, .i32⟩
  | .hbm, ⟨22, _⟩ => ⟨S56, .i32⟩
  | .hbm, ⟨23, _⟩ => ⟨S56, .i32⟩
  | .hbm, ⟨24, _⟩ => ⟨S_, .i32⟩
  | .hbm, ⟨25, _⟩ => ⟨S_, .i32⟩
  | .hbm, ⟨26, _⟩ => ⟨S56, .i32⟩
  | .hbm, ⟨27, _⟩ => ⟨S56, .i32⟩
  | .hbm, ⟨28, _⟩ => ⟨S56, .i32⟩
  | .hbm, ⟨29, _⟩ => ⟨S_, .i32⟩
  | .hbm, ⟨30, _⟩ => ⟨S56, .i32⟩
  | .hbm, ⟨31, _⟩ => ⟨S56, .i1⟩
  | .hbm, ⟨32, _⟩ => ⟨S56, .i32⟩
  | .hbm, ⟨33, _⟩ => ⟨S56, .i32⟩
  | .hbm, ⟨34, _⟩ => ⟨S_, .i32⟩
  | .hbm, ⟨35, _⟩ => ⟨S56, .i32⟩
  | .hbm, ⟨36, _⟩ => ⟨S56, .i1⟩
  | .hbm, ⟨37, _⟩ => ⟨S56, .i1⟩
  | .hbm, ⟨38, _⟩ => ⟨S_, .i32⟩
  | .hbm, ⟨39, _⟩ => ⟨S56, .i32⟩
  | .hbm, ⟨40, _⟩ => ⟨S56, .i32⟩
  | .hbm, ⟨41, _⟩ => ⟨S56, .i32⟩
  | .hbm, ⟨42, _⟩ => ⟨S56, .i32⟩
  | .hbm, ⟨43, _⟩ => ⟨S_, .i32⟩
  | .hbm, ⟨44, _⟩ => ⟨S56, .i32⟩
  | .hbm, ⟨45, _⟩ => ⟨S56, .i32⟩
  | .hbm, ⟨46, _⟩ => ⟨S_, .i32⟩
  | .hbm, ⟨47, _⟩ => ⟨S_, .i32⟩
  | .hbm, ⟨48, _⟩ => ⟨S56, .i32⟩
  | .hbm, ⟨49, _⟩ => ⟨S56, .i32⟩
  | .hbm, ⟨50, _⟩ => ⟨S56, .i32⟩
  | .hbm, ⟨51, _⟩ => ⟨S_, .i32⟩
  | .hbm, ⟨52, _⟩ => ⟨S56, .i32⟩
  | .hbm, ⟨53, _⟩ => ⟨S56, .i1⟩
  | .hbm, ⟨54, _⟩ => ⟨S56, .i32⟩
  | .hbm, ⟨55, _⟩ => ⟨S56, .i32⟩
  | .hbm, ⟨56, _⟩ => ⟨S_, .i32⟩
  | .hbm, ⟨57, _⟩ => ⟨S56, .i32⟩
  | .hbm, ⟨58, _⟩ => ⟨S56, .i1⟩
  | .hbm, ⟨59, _⟩ => ⟨S56, .i1⟩
  | .hbm, ⟨60, _⟩ => ⟨S_, .i32⟩
  | .hbm, ⟨61, _⟩ => ⟨S56, .i32⟩
  | .hbm, ⟨62, _⟩ => ⟨S56, .i32⟩
  | .hbm, ⟨63, _⟩ => ⟨S56, .i32⟩
  | .hbm, ⟨64, _⟩ => ⟨S56x1, .i32⟩
  | .hbm, ⟨65, _⟩ => ⟨S1x56, .i32⟩
  | .hbm, ⟨66, _⟩ => ⟨S_, .i32⟩
  | .hbm, ⟨67, _⟩ => ⟨S56x1, .i32⟩
  | .hbm, ⟨68, _⟩ => ⟨S56x1, .i1⟩
  | .hbm, ⟨69, _⟩ => ⟨S_, .i32⟩
  | .hbm, ⟨70, _⟩ => ⟨S56x1, .i32⟩
  | .hbm, ⟨71, _⟩ => ⟨S56x1, .i32⟩
  | .hbm, ⟨72, _⟩ => ⟨S56x1, .i32⟩
  | .hbm, ⟨73, _⟩ => ⟨S_, .i32⟩
  | .hbm, ⟨74, _⟩ => ⟨S1x56, .i32⟩
  | .hbm, ⟨75, _⟩ => ⟨S1x56, .i1⟩
  | .hbm, ⟨76, _⟩ => ⟨S_, .i32⟩
  | .hbm, ⟨77, _⟩ => ⟨S1x56, .i32⟩
  | .hbm, ⟨78, _⟩ => ⟨S1x56, .i32⟩
  | .hbm, ⟨79, _⟩ => ⟨S1x56, .i32⟩
  | .hbm, ⟨80, _⟩ => ⟨S56x56, .i32⟩
  | .hbm, ⟨81, _⟩ => ⟨S56x56, .i32⟩
  | .hbm, ⟨82, _⟩ => ⟨S56x56x1, .i32⟩
  | .hbm, ⟨83, _⟩ => ⟨S56x56x1, .i32⟩
  | .hbm, ⟨84, _⟩ => ⟨S56x56x2, .i32⟩
  | .hbm, ⟨85, _⟩ => ⟨S4x1x1x56x56, .f32⟩
  | .hbm, ⟨86, _⟩ => ⟨S_, .i32⟩
  | .hbm, ⟨87, _⟩ => ⟨S64, .i32⟩
  | .hbm, ⟨88, _⟩ => ⟨S64, .i1⟩
  | .hbm, ⟨89, _⟩ => ⟨S_, .i32⟩
  | .hbm, ⟨90, _⟩ => ⟨S64, .i32⟩
  | .hbm, ⟨91, _⟩ => ⟨S64, .i32⟩
  | .hbm, ⟨92, _⟩ => ⟨S64, .i32⟩
  | .hbm, ⟨93, _⟩ => ⟨S_, .i32⟩
  | .hbm, ⟨94, _⟩ => ⟨S64, .i32⟩
  | .hbm, ⟨95, _⟩ => ⟨S64, .i32⟩
  | .hbm, ⟨96, _⟩ => ⟨S64x1, .i32⟩
  | .hbm, ⟨97, _⟩ => ⟨S64x1, .i32⟩
  | .hbm, ⟨98, _⟩ => ⟨S64x2, .i32⟩
  | .hbm, ⟨99, _⟩ => ⟨S64x256x1x1, .f32⟩
  | .hbm, ⟨100, _⟩ => ⟨S_, .i32⟩
  | .hbm, ⟨101, _⟩ => ⟨S64, .i32⟩
  | .hbm, ⟨102, _⟩ => ⟨S64, .i1⟩
  | .hbm, ⟨103, _⟩ => ⟨S_, .i32⟩
  | .hbm, ⟨104, _⟩ => ⟨S64, .i32⟩
  | .hbm, ⟨105, _⟩ => ⟨S64, .i32⟩
  | .hbm, ⟨106, _⟩ => ⟨S64, .i32⟩
  | .hbm, ⟨107, _⟩ => ⟨S_, .i32⟩
  | .hbm, ⟨108, _⟩ => ⟨S64, .i32⟩
  | .hbm, ⟨109, _⟩ => ⟨S64, .i32⟩
  | .hbm, ⟨110, _⟩ => ⟨S64x1, .i32⟩
  | .hbm, ⟨111, _⟩ => ⟨S64x1, .i32⟩
  | .hbm, ⟨112, _⟩ => ⟨S64x2, .i32⟩
  | .hbm, ⟨113, _⟩ => ⟨S64x1x56x56, .f32⟩
  | .hbm, ⟨114, _⟩ => ⟨S64x256x56x56, .f32⟩
  | .hbm, ⟨115, _⟩ => ⟨S64x256x56x56, .f32⟩
  | .hbm, ⟨116, _⟩ => ⟨S64x256x56x56, .f32⟩
  | .hbm, ⟨117, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_c_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_c_6 : Ref sig .tc := ⟨.hbm, 66, rfl⟩
abbrev main_v22 : Ref sig .tc := ⟨.hbm, 67, rfl⟩
abbrev main_v23 : Ref sig .tc := ⟨.hbm, 68, rfl⟩
abbrev main_c_7 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_c_8 : Ref sig .tc := ⟨.hbm, 73, rfl⟩
abbrev main_v27 : Ref sig .tc := ⟨.hbm, 74, rfl⟩
abbrev main_v28 : Ref sig .tc := ⟨.hbm, 75, rfl⟩
abbrev main_c_9 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_c_10 : Ref sig .tc := ⟨.hbm, 86, rfl⟩
abbrev main_v38 : Ref sig .tc := ⟨.hbm, 87, rfl⟩
abbrev main_v39 : Ref sig .tc := ⟨.hbm, 88, rfl⟩
abbrev main_c_11 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_c_12 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_c_13 : Ref sig .tc := ⟨.hbm, 100, rfl⟩
abbrev main_v49 : Ref sig .tc := ⟨.hbm, 101, rfl⟩
abbrev main_v50 : Ref sig .tc := ⟨.hbm, 102, rfl⟩
abbrev main_c_14 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_c_15 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩

abbrev nD : Nat := 1
abbrev τ : Topo := Topo.v7x

variable {F : FTy → Type} [FloatOps F]

class Facts₀ : Prop where
  bcast_S_S4x1x256x1x1 : S_.BroadcastsInDim S4x1x256x1x1 (![] : Fin 0 → Fin S4x1x256x1x1.rank)
  bcast_S_S4x1x1x28x28 : S_.BroadcastsInDim S4x1x1x28x28 (![] : Fin 0 → Fin S4x1x1x28x28.rank)
  bcast_S_S56 : S_.BroadcastsInDim S56 (![] : Fin 0 → Fin S56.rank)
  bcast_S56_S56x1_0 : S56.BroadcastsInDim S56x1 (![0] : Fin 1 → Fin S56x1.rank)
  bcast_S56_S1x56_1 : S56.BroadcastsInDim S1x56 (![1] : Fin 1 → Fin S1x56.rank)
  bcast_S_S56x1 : S_.BroadcastsInDim S56x1 (![] : Fin 0 → Fin S56x1.rank)
  bcast_S_S1x56 : S_.BroadcastsInDim S1x56 (![] : Fin 0 → Fin S1x56.rank)
  bcast_S56x1_S56x56_0_1 : S56x1.BroadcastsInDim S56x56 (![0, 1] : Fin 2 → Fin S56x56.rank)
  bcast_S1x56_S56x56_0_1 : S1x56.BroadcastsInDim S56x56 (![0, 1] : Fin 2 → Fin S56x56.rank)
  bcast_S56x56_S56x56x1_0_1 : S56x56.BroadcastsInDim S56x56x1 (![0, 1] : Fin 2 → Fin S56x56x1.rank)
  concatenates_S56x56x1_S56x56x1_S56x56x2_d2 : Shape.Concatenates [S56x56x1, S56x56x1] S56x56x2 2
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S64x256x1x1_S64x256x56x56_0_1_2_3 : S64x256x1x1.BroadcastsInDim S64x256x56x56 (![0, 1, 2, 3] : Fin 4 → Fin S64x256x56x56.rank)
  bcast_S64x1x56x56_S64x256x56x56_0_1_2_3 : S64x1x56x56.BroadcastsInDim S64x256x56x56 (![0, 1, 2, 3] : Fin 4 → Fin S64x256x56x56.rank)
  gather_S4x1x1x28x28_S56x56x2_S4x1x1x56x56_012_34_n_n_34_2_41111_wf : GatherDims.WF S4x1x1x28x28 S56x56x2 S4x1x1x56x56 [0, 1, 2] [3, 4] [] [3, 4] [] 2 ![4, 1, 1, 1, 1]
  gather_S4x1x256x1x1_S64x2_S64x256x1x1_123_01_n_n_01_1_1125611_wf : GatherDims.WF S4x1x256x1x1 S64x2 S64x256x1x1 [1, 2, 3] [0, 1] [] [0, 1] [] 1 ![1, 1, 256, 1, 1]
  gather_S4x1x1x56x56_S64x2_S64x1x56x56_123_01_n_n_01_1_1115656_wf : GatherDims.WF S4x1x1x56x56 S64x2 S64x1x56x56 [1, 2, 3] [0, 1] [] [0, 1] [] 1 ![1, 1, 1, 56, 56]

variable [Facts₀]

def gather_S4x1x1x28x28_S56x56x2_S4x1x1x56x56_012_34_n_n_34_2_41111 : GatherDims S4x1x1x28x28 S56x56x2 S4x1x1x56x56 where
  offsetDims := [0, 1, 2]
  collapsedSliceDims := [3, 4]
  operandBatchingDims := []
  startIndicesBatchingDims := []
  startIndexMap := [3, 4]
  indexVectorDim := 2
  sliceSizes := ![4, 1, 1, 1, 1]
  wf := gather_S4x1x1x28x28_S56x56x2_S4x1x1x56x56_012_34_n_n_34_2_41111_wf
def gather_S4x1x256x1x1_S64x2_S64x256x1x1_123_01_n_n_01_1_1125611 : GatherDims S4x1x256x1x1 S64x2 S64x256x1x1 where
  offsetDims := [1, 2, 3]
  collapsedSliceDims := [0, 1]
  operandBatchingDims := []
  startIndicesBatchingDims := []
  startIndexMap := [0, 1]
  indexVectorDim := 1
  sliceSizes := ![1, 1, 256, 1, 1]
  wf := gather_S4x1x256x1x1_S64x2_S64x256x1x1_123_01_n_n_01_1_1125611_wf
def gather_S4x1x1x56x56_S64x2_S64x1x56x56_123_01_n_n_01_1_1115656 : GatherDims S4x1x1x56x56 S64x2 S64x1x56x56 where
  offsetDims := [1, 2, 3]
  collapsedSliceDims := [0, 1]
  operandBatchingDims := []
  startIndicesBatchingDims := []
  startIndexMap := [0, 1]
  indexVectorDim := 1
  sliceSizes := ![1, 1, 1, 56, 56]
  wf := gather_S4x1x1x56x56_S64x2_S64x1x56x56_123_01_n_n_01_1_1115656_wf

class Facts : Prop extends Facts₀ where

variable [Facts]
-- ==== Proof.Gates.lean ====
/-
  The two attention gates as functions of the inputs, in the reference program's vocabulary.

  Both programs compute, before anything touches `x`:
    * `chanTable a`  — the logistic function 1 / (1 + exp (−a)) of the channel table, entry by entry, [4,1,256,1,1];
    * `spatTable a`  — the logistic function of the spatial table [4,1,1,28,28], then its nearest-neighbour
      enlargement to [4,1,1,56,56]: entry (h, w) is taken from row `srcPos h`, column `srcPos w`, where
      `srcPos i = ⌊28·i / 56⌋` (an integer floor division spelt out over truncating division, remainder and signs),
      a negative position wrapped once by 28;
    * `labelIdx lab` — per sample the pair (label, 0), a negative label wrapped once by 4: the start indices of
      the two per-sample gathers;
    * `gateC lab a`  — per sample the row of `chanTable a` its label names, [64,256,1,1];
    * `gateS lab a`  — per sample the plane of `spatTable a` its label names, [64,1,56,56].
  The result is then `x · gateC · gateS` with the gates broadcast along the axes they lack (`scaled`).
  Each is built from small named steps, so that a program's host operations can be read a few at a time.
  Nothing here is evaluated anywhere in the proof: the two programs are shown to apply these same functions.
-/
import proofs.«141464_j45870250721474_1_alg».proof.ReferenceIdeal
import proofs.«141464_j45870250721474_1_alg».proof.Proof.Gen.ReferenceIdeal
import Idealize.ShloMosaic.PureOps.Ideal

noncomputable section

namespace Cert.Gates

open Idealize.ShloMosaic Cert.ReferenceIdeal
open Cert.ReferenceIdeal.Facts₀

variable {F : FTy → Type} [FloatOps F]

/-! ## The two logistic tables -/

/-- The logistic function of the channel table: 1 / (1 + exp (−a)), entry by entry. -/
def chanTable (a : (⟨S4x1x256x1x1, .f32⟩ : BufTy).Contents (Elt F)) : (⟨S4x1x256x1x1, .f32⟩ : BufTy).Contents (Elt F) :=
  Host.divf (broadcastInDim S4x1x256x1x1 ![] bcast_S_S4x1x256x1x1 (constant S_ .f32 0x3F800000#32))
    (addf (broadcastInDim S4x1x256x1x1 ![] bcast_S_S4x1x256x1x1 (constant S_ .f32 0x3F800000#32)) (Host.exp (Host.negf a)))

/-- The logistic function of the spatial table at its native 28 × 28 resolution. -/
def spatLogistic (a : (⟨S4x1x1x28x28, .f32⟩ : BufTy).Contents (Elt F)) : (⟨S4x1x1x28x28, .f32⟩ : BufTy).Contents (Elt F) :=
  Host.divf (broadcastInDim S4x1x1x28x28 ![] bcast_S_S4x1x1x28x28 (constant S_ .f32 0x3F800000#32))
    (addf (broadcastInDim S4x1x1x28x28 ![] bcast_S_S4x1x1x28x28 (constant S_ .f32 0x3F800000#32)) (Host.exp (Host.negf a)))

/-! ## The source positions of the enlargement -/

/-- 28 · i for i = 0 … 55. -/
def scaledIota : (⟨S56, .i32⟩ : BufTy).Contents (Elt F) :=
  muli (iotaInDim S56 32 0) (broadcastInDim S56 ![] bcast_S_S56 (constantI S_ 32 28#32))

/-- Floor division of a vector of 56 integers by one integer, over truncating division: where the signs differ and
    the remainder is not zero the truncated quotient is lowered by one. -/
def floorDiv (x : (⟨S56, .i32⟩ : BufTy).Contents (Elt F)) (d : (⟨S_, .i32⟩ : BufTy).Contents (Elt F)) : (⟨S56, .i32⟩ : BufTy).Contents (Elt F) :=
  select
    (andi (cmpi .ne (signi x) (broadcastInDim S56 ![] bcast_S_S56 (signi d)))
      (cmpi .ne (Host.remsi x (broadcastInDim S56 ![] bcast_S_S56 d)) (broadcastInDim S56 ![] bcast_S_S56 (constantI S_ 32 0#32))))
    (subi (Host.divsi x (broadcastInDim S56 ![] bcast_S_S56 d)) (broadcastInDim S56 ![] bcast_S_S56 (constantI S_ 32 1#32)))
    (Host.divsi x (broadcastInDim S56 ![] bcast_S_S56 d))

/-- The source position of each of the 56 enlarged positions: ⌊28 · i / 56⌋. -/
def srcPos : (⟨S56, .i32⟩ : BufTy).Contents (Elt F) :=
  floorDiv (scaledIota (F := F)) (id (constantI S_ 32 56#32))

/-- Positions as a column [56,1], a negative one wrapped once by 28. -/
def rowsOf (p : (⟨S56, .i32⟩ : BufTy).Contents (Elt F)) : (⟨S56x1, .i32⟩ : BufTy).Contents (Elt F) :=
  select (cmpi .slt (broadcastInDim S56x1 ![0] bcast_S56_S56x1_0 p) (broadcastInDim S56x1 ![] bcast_S_S56x1 (constantI S_ 32 0#32)))
    (addi (broadcastInDim S56x1 ![0] bcast_S56_S56x1_0 p) (broadcastInDim S56x1 ![] bcast_S_S56x1 (constantI S_ 32 28#32)))
    (broadcastInDim S56x1 ![0] bcast_S56_S56x1_0 p)

/-- Positions as a row [1,56], a negative one wrapped once by 28. -/
def colsOf (p : (⟨S56, .i32⟩ : BufTy).Contents (Elt F)) : (⟨S1x56, .i32⟩ : BufTy).Contents (Elt F) :=
  select (cmpi .slt (broadcastInDim S1x56 ![1] bcast_S56_S1x56_1 p) (broadcastInDim S1x56 ![] bcast_S_S1x56 (constantI S_ 32 0#32)))
    (addi (broadcastInDim S1x56 ![1] bcast_S56_S1x56_1 p) (broadcastInDim S1x56 ![] bcast_S_S1x56 (constantI S_ 32 28#32)))
    (broadcastInDim S1x56 ![1] bcast_S56_S1x56_1 p)

/-- The wrapped rows spread over the 56 × 56 positions, with a trailing unit axis. -/
def rowsCube (p : (⟨S56, .i32⟩ : BufTy).Contents (Elt F)) : (⟨S56x56x1, .i32⟩ : BufTy).Contents (Elt F) :=
  broadcastInDim S56x56x1 ![0, 1] bcast_S56x56_S56x56x1_0_1 (broadcastInDim S56x56 ![0, 1] bcast_S56x1_S56x56_0_1 (rowsOf p))

/-- The wrapped columns spread over the 56 × 56 positions, with a trailing unit axis. -/
def colsCube (p : (⟨S56, .i32⟩ : BufTy).Contents (Elt F)) : (⟨S56x56x1, .i32⟩ : BufTy).Contents (Elt F) :=
  broadcastInDim S56x56x1 ![0, 1] bcast_S56x56_S56x56x1_0_1 (broadcastInDim S56x56 ![0, 1] bcast_S1x56_S56x56_0_1 (colsOf p))

/-- Two [56,56,1] arrays joined along the last axis: per position the pair of their entries. -/
def pairs (r c : (⟨S56x56x1, .i32⟩ : BufTy).Contents (Elt F)) : (⟨S56x56x2, .i32⟩ : BufTy).Contents (Elt F) :=
  concatenate S56x56x2 2 [⟨S56x56x1, r⟩, ⟨S56x56x1, c⟩] concatenates_S56x56x1_S56x56x1_S56x56x2_d2

/-- Per enlarged position (h, w) the pair (source row of h, source column of w): the start indices of the enlargement. -/
def srcIdx : (⟨S56x56x2, .i32⟩ : BufTy).Contents (Elt F) :=
  pairs (rowsCube (srcPos (F := F))) (colsCube (srcPos (F := F)))

/-- A [4,1,1,28,28] table read at pairs of (row, column) positions: the result's entry (d, 0, 0, h, w) is the table's at
    the pair the index array holds for (h, w). -/
def enlarge (tbl : (⟨S4x1x1x28x28, .f32⟩ : BufTy).Contents (Elt F)) (idx : (⟨S56x56x2, .i32⟩ : BufTy).Contents (Elt F)) : (⟨S4x1x1x56x56, .f32⟩ : BufTy).Contents (Elt F) :=
  Host.gather gather_S4x1x1x28x28_S56x56x2_S4x1x1x56x56_012_34_n_n_34_2_41111 tbl idx

/-- The spatial gate table: the logistic function of the table, enlarged from 28 × 28 to 56 × 56 by nearest neighbour. -/
def spatTable (a : (⟨S4x1x1x28x28, .f32⟩ : BufTy).Contents (Elt F)) : (⟨S4x1x1x56x56, .f32⟩ : BufTy).Contents (Elt F) :=
  enlarge (spatLogistic a) (srcIdx (F := F))

/-! ## The per-sample gathers -/

/-- The labels, a negative one wrapped once by 4. -/
def wrapLabel (lab : (⟨S64, .i32⟩ : BufTy).Contents (Elt F)) : (⟨S64, .i32⟩ : BufTy).Contents (Elt F) :=
  select (cmpi .slt lab (broadcastInDim S64 ![] bcast_S_S64 (constantI S_ 32 0#32)))
    (addi lab (broadcastInDim S64 ![] bcast_S_S64 (constantI S_ 32 4#32))) lab

/-- Sixty-four zeros: the second start index of each per-sample gather. -/
def zeroCol : (⟨S64, .i32⟩ : BufTy).Contents (Elt F) :=
  id (broadcastInDim S64 ![] bcast_S_S64 (constantI S_ 32 0#32))

/-- Two vectors of 64 integers as the two columns of a [64,2] array. -/
def labelPairs (w z : (⟨S64, .i32⟩ : BufTy).Contents (Elt F)) : (⟨S64x2, .i32⟩ : BufTy).Contents (Elt F) :=
  concatenate S64x2 1
    [⟨S64x1, broadcastInDim S64x1 ![0] bcast_S64_S64x1_0 w⟩, ⟨S64x1, broadcastInDim S64x1 ![0] bcast_S64_S64x1_0 z⟩]
    concatenates_S64x1_S64x1_S64x2_d1

/-- Per sample the pair (label, 0), a negative label wrapped once by 4. -/
def labelIdx (lab : (⟨S64, .i32⟩ : BufTy).Contents (Elt F)) : (⟨S64x2, .i32⟩ : BufTy).Contents (Elt F) :=
  labelPairs (wrapLabel lab) (zeroCol (F := F))

/-- Per sample the row of a [4,1,256,1,1] table its index pair names. -/
def pickC (tbl : (⟨S4x1x256x1x1, .f32⟩ : BufTy).Contents (Elt F)) (idx : (⟨S64x2, .i32⟩ : BufTy).Contents (Elt F)) : (⟨S64x256x1x1, .f32⟩ : BufTy).Contents (Elt F) :=
  Host.gather gather_S4x1x256x1x1_S64x2_S64x256x1x1_123_01_n_n_01_1_1125611 tbl idx

/-- Per sample the plane of a [4,1,1,56,56] table its index pair names. -/
def pickS (tbl : (⟨S4x1x1x56x56, .f32⟩ : BufTy).Contents (Elt F)) (idx : (⟨S64x2, .i32⟩ : BufTy).Contents (Elt F)) : (⟨S64x1x56x56, .f32⟩ : BufTy).Contents (Elt F) :=
  Host.gather gather_S4x1x1x56x56_S64x2_S64x1x56x56_123_01_n_n_01_1_1115656 tbl idx

/-- The channel gate: per sample the row of the channel gate table its label names. -/
def gateC (lab : (⟨S64, .i32⟩ : BufTy).Contents (Elt F)) (a : (⟨S4x1x256x1x1, .f32⟩ : BufTy).Contents (Elt F)) : (⟨S64x256x1x1, .f32⟩ : BufTy).Contents (Elt F) :=
  pickC (chanTable a) (labelIdx lab)

/-- The spatial gate: per sample the plane of the spatial gate table its label names. -/
def gateS (lab : (⟨S64, .i32⟩ : BufTy).Contents (Elt F)) (a : (⟨S4x1x1x28x28, .f32⟩ : BufTy).Contents (Elt F)) : (⟨S64x1x56x56, .f32⟩ : BufTy).Contents (Elt F) :=
  pickS (spatTable a) (labelIdx lab)

/-! ## The result -/

/-- `x` scaled by a channel gate [64,256,1,1] and a spatial gate [64,1,56,56], each broadcast along the axes it lacks:
    entry (n, c, h, w) is x (n, c, h, w) · gc (n, c, 0, 0) · gs (n, 0, h, w). -/
def scaled (x : (⟨S64x256x56x56, .f32⟩ : BufTy).Contents (Elt F)) (gc : (⟨S64x256x1x1, .f32⟩ : BufTy).Contents (Elt F)) (gs : (⟨S64x1x56x56, .f32⟩ : BufTy).Contents (Elt F)) :
    (⟨S64x256x56x56, .f32⟩ : BufTy).Contents (Elt F) :=
  mulf (mulf x (broadcastInDim S64x256x56x56 ![0, 1, 2, 3] bcast_S64x256x1x1_S64x256x56x56_0_1_2_3 gc))
    (broadcastInDim S64x256x56x56 ![0, 1, 2, 3] bcast_S64x1x56x56_S64x256x56x56_0_1_2_3 gs)

end Cert.Gates

end
-- ==== Proof.RefRun.lean ====
/-
  The reference program's run, read back.

  The reference is a straight line of host operations: the two logistic tables, the nearest-neighbour source
  positions (two integer floor divisions, each a called function whose 17 operations run in place on that call's
  own buffers), the enlargement of the spatial table, the per-sample label indices, the two per-sample gathers,
  and at the end the two broadcasts and two products that scale `x`. `ops` lists the 114 operations in order,
  in ten short stretches, cut where few values are live: the first seven are the program's first printed window
  (statements 1 to 60, its two calls unfolded), the last three its second window. `main_eq` says @main IS that
  line, and `run_fold` that every weakly fair execution ends with each buffer at the operations' fold over the
  launch contents. That fold is read at the results in the next module.
-/
import proofs.«141464_j45870250721474_1_alg».proof.ReferenceIdeal
import proofs.«141464_j45870250721474_1_alg».proof.Proof.Gen.ReferenceIdeal
import proofs.«141464_j45870250721474_1_alg».proof.Proof.Gates
import Idealize.ShloMosaic.Lib.StableHlo.Run

noncomputable section

namespace Cert.ReferenceIdeal.RefRun

open Idealize.ShloMosaic Idealize.ShloMosaic.TcCoe Idealize.SL.Sem
open Cert.ReferenceIdeal
open Cert.ReferenceIdeal.Facts₀

variable {F : FTy → Type} [FloatOps F]

/-- The two logistic tables, the first scaled iota and its divisor: 21 operations. -/
abbrev opsA : List (HloOp τ sig (Elt F)) :=
  ( StableHlo.unary main_arg2 main_v0 (Host.negf : (⟨S4x1x256x1x1, .f32⟩ : BufTy).Contents (Elt F) → (⟨S4x1x256x1x1, .f32⟩ : BufTy).Contents (Elt F))
  :: StableHlo.unary main_v0 main_v1 (Host.exp : (⟨S4x1x256x1x1, .f32⟩ : BufTy).Contents (Elt F) → (⟨S4x1x256x1x1, .f32⟩ : BufTy).Contents (Elt F))
  :: StableHlo.nullary main_cst (constant S_ .f32 0x3F800000#32)
  :: StableHlo.unary main_cst main_v2 (broadcastInDim S4x1x256x1x1 ![] bcast_S_S4x1x256x1x1 : (⟨S_, .f32⟩ : BufTy).Contents (Elt F) → (⟨S4x1x256x1x1, .f32⟩ : BufTy).Contents (Elt F))
  :: StableHlo.binary main_v2 main_v1 main_v3 (addf : (⟨S4x1x256x1x1, .f32⟩ : BufTy).Contents (Elt F) → (⟨S4x1x256x1x1, .f32⟩ : BufTy).Contents (Elt F) → (⟨S4x1x256x1x1, .f32⟩ : BufTy).Contents (Elt F))
  :: StableHlo.nullary main_cst_0 (constant S_ .f32 0x3F800000#32)
  :: StableHlo.unary main_cst_0 main_v4 (broadcastInDim S4x1x256x1x1 ![] bcast_S_S4x1x256x1x1 : (⟨S_, .f32⟩ : BufTy).Contents (Elt F) → (⟨S4x1x256x1x1, .f32⟩ : BufTy).Contents (Elt F))
  :: StableHlo.binary main_v4 main_v3 main_v5 (Host.divf : (⟨S4x1x256x1x1, .f32⟩ : BufTy).Contents (Elt F) → (⟨S4x1x256x1x1, .f32⟩ : BufTy).Contents (Elt F) → (⟨S4x1x256x1x1, .f32⟩ : BufTy).Contents (Elt F))
  :: StableHlo.unary main_arg3 main_v6 (Host.negf : (⟨S4x1x1x28x28, .f32⟩ : BufTy).Contents (Elt F) → (⟨S4x1x1x28x28, .f32⟩ : BufTy).Contents (Elt F))
  :: StableHlo.unary main_v6 main_v7 (Host.exp : (⟨S4x1x1x28x28, .f32⟩ : BufTy).Contents (Elt F) → (⟨S4x1x1x28x28, .f32⟩ : BufTy).Contents (Elt F))
  :: StableHlo.nullary main_cst_1 (constant S_ .f32 0x3F800000#32)
  :: StableHlo.unary main_cst_1 main_v8 (broadcastInDim S4x1x1x28x28 ![] bcast_S_S4x1x1x28x28 : (⟨S_, .f32⟩ : BufTy).Contents (Elt F) → (⟨S4x1x1x28x28, .f32⟩ : BufTy).Contents (Elt F))
  :: StableHlo.binary main_v8 main_v7 main_v9 (addf : (⟨S4x1x1x28x28, .f32⟩ : BufTy).Contents (Elt F) → (⟨S4x1x1x28x28, .f32⟩ : BufTy).Contents (Elt F) → (⟨S4x1x1x28x28, .f32⟩ : BufTy).Contents (Elt F))
  :: StableHlo.nullary main_cst_2 (constant S_ .f32 0x3F800000#32)
  :: StableHlo.unary main_cst_2 main_v10 (broadcastInDim S4x1x1x28x28 ![] bcast_S_S4x1x1x28x28 : (⟨S_, .f32⟩ : BufTy).Contents (Elt F) → (⟨S4x1x1x28x28, .f32⟩ : BufTy).Contents (Elt F))
  :: StableHlo.binary main_v10 main_v9 main_v11 (Host.divf : (⟨S4x1x1x28x28, .f32⟩ : BufTy).Contents (Elt F) → (⟨S4x1x1x28x28, .f32⟩ : BufTy).Contents (Elt F) → (⟨S4x1x1x28x28, .f32⟩ : BufTy).Contents (Elt F))
  :: StableHlo.nullary main_v12 (iotaInDim S56 32 0)
  :: StableHlo.nullary main_c (constantI S_ 32 28#32)
  :: StableHlo.unary main_c main_v13 (broadcastInDim S56 ![] bcast_S_S56 : (⟨S_, .i32⟩ : BufTy).Contents (Elt F) → (⟨S56, .i32⟩ : BufTy).Contents (Elt F))
  :: StableHlo.binary main_v12 main_v13 main_v14 (muli : (⟨S56, .i32⟩ : BufTy).Contents (Elt F) → (⟨S56, .i32⟩ : BufTy).Contents (Elt F) → (⟨S56, .i32⟩ : BufTy).Contents (Elt F))
  :: StableHlo.nullary main_c_3 (constantI S_ 32 56#32)
  :: [] )
theorem opsA_sub : (opsA : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.binary_bufs_sub .., StableHlo.nullary_bufs_sub ..⟩

/-- The first floor division's 17 operations (source positions of the rows), run on that call's own buffers. -/
abbrev opsB : List (HloOp τ sig (Elt F)) :=
  ( StableHlo.TRef.unary (.of main_c_3 : StableHlo.TRef sig ⟨S_, .i32⟩) (.of main_call0_v0 : StableHlo.TRef sig ⟨S_, .i32⟩) id
  :: StableHlo.TRef.unary (.of main_call0_v0 : StableHlo.TRef sig ⟨S_, .i32⟩) (.of main_call0_v1 : StableHlo.TRef sig ⟨S56, .i32⟩) (broadcastInDim S56 ![] bcast_S_S56)
  :: StableHlo.TRef.binary (.of main_v14 : StableHlo.TRef sig ⟨S56, .i32⟩) (.of main_call0_v1 : StableHlo.TRef sig ⟨S56, .i32⟩) (.of main_call0_v2 : StableHlo.TRef sig ⟨S56, .i32⟩) Host.divsi
  :: StableHlo.TRef.unary (.of main_v14 : StableHlo.TRef sig ⟨S56, .i32⟩) (.of main_call0_v3 : StableHlo.TRef sig ⟨S56, .i32⟩) signi
  :: StableHlo.TRef.unary (.of main_call0_v0 : StableHlo.TRef sig ⟨S_, .i32⟩) (.of main_call0_v4 : StableHlo.TRef sig ⟨S_, .i32⟩) signi
  :: StableHlo.TRef.unary (.of main_call0_v4 : StableHlo.TRef sig ⟨S_, .i32⟩) (.of main_call0_v5 : StableHlo.TRef sig ⟨S56, .i32⟩) (broadcastInDim S56 ![] bcast_S_S56)
  :: StableHlo.TRef.binary (.of main_call0_v3 : StableHlo.TRef sig ⟨S56, .i32⟩) (.of main_call0_v5 : StableHlo.TRef sig ⟨S56, .i32⟩) (.of main_call0_v6 : StableHlo.TRef sig ⟨S56, .i1⟩) (cmpi .ne)
  :: StableHlo.TRef.unary (.of main_call0_v0 : StableHlo.TRef sig ⟨S_, .i32⟩) (.of main_call0_v7 : StableHlo.TRef sig ⟨S56, .i32⟩) (broadcastInDim S56 ![] bcast_S_S56)
  :: StableHlo.TRef.binary (.of main_v14 : StableHlo.TRef sig ⟨S56, .i32⟩) (.of main_call0_v7 : StableHlo.TRef sig ⟨S56, .i32⟩) (.of main_call0_v8 : StableHlo.TRef sig ⟨S56, .i32⟩) Host.remsi
  :: StableHlo.TRef.nullary (.of main_call0_c : StableHlo.TRef sig ⟨S_, .i32⟩) (constantI S_ 32 0#32)
  :: StableHlo.TRef.unary (.of main_call0_c : StableHlo.TRef sig ⟨S_, .i32⟩) (.of main_call0_v9 : StableHlo.TRef sig ⟨S56, .i32⟩) (broadcastInDim S56 ![] bcast_S_S56)
  :: StableHlo.TRef.binary (.of main_call0_v8 : StableHlo.TRef sig ⟨S56, .i32⟩) (.of main_call0_v9 : StableHlo.TRef sig ⟨S56, .i32⟩) (.of main_call0_v10 : StableHlo.TRef sig ⟨S56, .i1⟩) (cmpi .ne)
  :: StableHlo.TRef.binary (.of main_call0_v6 : StableHlo.TRef sig ⟨S56, .i1⟩) (.of main_call0_v10 : StableHlo.TRef sig ⟨S56, .i1⟩) (.of main_call0_v11 : StableHlo.TRef sig ⟨S56, .i1⟩) andi
  :: StableHlo.TRef.nullary (.of main_call0_c_0 : StableHlo.TRef sig ⟨S_, .i32⟩) (constantI S_ 32 1#32)
  :: StableHlo.TRef.unary (.of main_call0_c_0 : StableHlo.TRef sig ⟨S_, .i32⟩) (.of main_call0_v12 : StableHlo.TRef sig ⟨S56, .i32⟩) (broadcastInDim S56 ![] bcast_S_S56)
  :: StableHlo.TRef.binary (.of main_call0_v2 : StableHlo.TRef sig ⟨S56, .i32⟩) (.of main_call0_v12 : StableHlo.TRef sig ⟨S56, .i32⟩) (.of main_call0_v13 : StableHlo.TRef sig ⟨S56, .i32⟩) subi
  :: StableHlo.TRef.ternary (.of main_call0_v11 : StableHlo.TRef sig ⟨S56, .i1⟩) (.of main_call0_v13 : StableHlo.TRef sig ⟨S56, .i32⟩) (.of main_call0_v2 : StableHlo.TRef sig ⟨S56, .i32⟩) (.of main_v15 : StableHlo.TRef sig ⟨S56, .i32⟩) select
  :: [] )
theorem opsB_sub : (opsB : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- The second scaled iota and its divisor: 5 operations. -/
abbrev opsC : List (HloOp τ sig (Elt F)) :=
  ( StableHlo.nullary main_v16 (iotaInDim S56 32 0)
  :: StableHlo.nullary main_c_4 (constantI S_ 32 28#32)
  :: StableHlo.unary main_c_4 main_v17 (broadcastInDim S56 ![] bcast_S_S56 : (⟨S_, .i32⟩ : BufTy).Contents (Elt F) → (⟨S56, .i32⟩ : BufTy).Contents (Elt F))
  :: StableHlo.binary main_v16 main_v17 main_v18 (muli : (⟨S56, .i32⟩ : BufTy).Contents (Elt F) → (⟨S56, .i32⟩ : BufTy).Contents (Elt F) → (⟨S56, .i32⟩ : BufTy).Contents (Elt F))
  :: StableHlo.nullary main_c_5 (constantI S_ 32 56#32)
  :: [] )
theorem opsC_sub : (opsC : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub ..⟩

/-- The second floor division's 17 operations (source positions of the columns). -/
abbrev opsD : List (HloOp τ sig (Elt F)) :=
  ( StableHlo.TRef.unary (.of main_c_5 : StableHlo.TRef sig ⟨S_, .i32⟩) (.of main_call1_v0 : StableHlo.TRef sig ⟨S_, .i32⟩) id
  :: StableHlo.TRef.unary (.of main_call1_v0 : StableHlo.TRef sig ⟨S_, .i32⟩) (.of main_call1_v1 : StableHlo.TRef sig ⟨S56, .i32⟩) (broadcastInDim S56 ![] bcast_S_S56)
  :: StableHlo.TRef.binary (.of main_v18 : StableHlo.TRef sig ⟨S56, .i32⟩) (.of main_call1_v1 : StableHlo.TRef sig ⟨S56, .i32⟩) (.of main_call1_v2 : StableHlo.TRef sig ⟨S56, .i32⟩) Host.divsi
  :: StableHlo.TRef.unary (.of main_v18 : StableHlo.TRef sig ⟨S56, .i32⟩) (.of main_call1_v3 : StableHlo.TRef sig ⟨S56, .i32⟩) signi
  :: StableHlo.TRef.unary (.of main_call1_v0 : StableHlo.TRef sig ⟨S_, .i32⟩) (.of main_call1_v4 : StableHlo.TRef sig ⟨S_, .i32⟩) signi
  :: StableHlo.TRef.unary (.of main_call1_v4 : StableHlo.TRef sig ⟨S_, .i32⟩) (.of main_call1_v5 : StableHlo.TRef sig ⟨S56, .i32⟩) (broadcastInDim S56 ![] bcast_S_S56)
  :: StableHlo.TRef.binary (.of main_call1_v3 : StableHlo.TRef sig ⟨S56, .i32⟩) (.of main_call1_v5 : StableHlo.TRef sig ⟨S56, .i32⟩) (.of main_call1_v6 : StableHlo.TRef sig ⟨S56, .i1⟩) (cmpi .ne)
  :: StableHlo.TRef.unary (.of main_call1_v0 : StableHlo.TRef sig ⟨S_, .i32⟩) (.of main_call1_v7 : StableHlo.TRef sig ⟨S56, .i32⟩) (broadcastInDim S56 ![] bcast_S_S56)
  :: StableHlo.TRef.binary (.of main_v18 : StableHlo.TRef sig ⟨S56, .i32⟩) (.of main_call1_v7 : StableHlo.TRef sig ⟨S56, .i32⟩) (.of main_call1_v8 : StableHlo.TRef sig ⟨S56, .i32⟩) Host.remsi
  :: StableHlo.TRef.nullary (.of main_call1_c : StableHlo.TRef sig ⟨S_, .i32⟩) (constantI S_ 32 0#32)
  :: StableHlo.TRef.unary (.of main_call1_c : StableHlo.TRef sig ⟨S_, .i32⟩) (.of main_call1_v9 : StableHlo.TRef sig ⟨S56, .i32⟩) (broadcastInDim S56 ![] bcast_S_S56)
  :: StableHlo.TRef.binary (.of main_call1_v8 : StableHlo.TRef sig ⟨S56, .i32⟩) (.of main_call1_v9 : StableHlo.TRef sig ⟨S56, .i32⟩) (.of main_call1_v10 : StableHlo.TRef sig ⟨S56, .i1⟩) (cmpi .ne)
  :: StableHlo.TRef.binary (.of main_call1_v6 : StableHlo.TRef sig ⟨S56, .i1⟩) (.of main_call1_v10 : StableHlo.TRef sig ⟨S56, .i1⟩) (.of main_call1_v11 : StableHlo.TRef sig ⟨S56, .i1⟩) andi
  :: StableHlo.TRef.nullary (.of main_call1_c_0 : StableHlo.TRef sig ⟨S_, .i32⟩) (constantI S_ 32 1#32)
  :: StableHlo.TRef.unary (.of main_call1_c_0 : StableHlo.TRef sig ⟨S_, .i32⟩) (.of main_call1_v12 : StableHlo.TRef sig ⟨S56, .i32⟩) (broadcastInDim S56 ![] bcast_S_S56)
  :: StableHlo.TRef.binary (.of main_call1_v2 : StableHlo.TRef sig ⟨S56, .i32⟩) (.of main_call1_v12 : StableHlo.TRef sig ⟨S56, .i32⟩) (.of main_call1_v13 : StableHlo.TRef sig ⟨S56, .i32⟩) subi
  :: StableHlo.TRef.ternary (.of main_call1_v11 : StableHlo.TRef sig ⟨S56, .i1⟩) (.of main_call1_v13 : StableHlo.TRef sig ⟨S56, .i32⟩) (.of main_call1_v2 : StableHlo.TRef sig ⟨S56, .i32⟩) (.of main_v19 : StableHlo.TRef sig ⟨S56, .i32⟩) select
  :: [] )
theorem opsD_sub : (opsD : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- The wrapped source rows and columns, each broadcast to [56,56,1]: 20 operations. -/
abbrev opsE1 : List (HloOp τ sig (Elt F)) :=
  ( StableHlo.unary main_v15 main_v20 (broadcastInDim S56x1 ![0] bcast_S56_S56x1_0 : (⟨S56, .i32⟩ : BufTy).Contents (Elt F) → (⟨S56x1, .i32⟩ : BufTy).Contents (Elt F))
  :: StableHlo.unary main_v19 main_v21 (broadcastInDim S1x56 ![1] bcast_S56_S1x56_1 : (⟨S56, .i32⟩ : BufTy).Contents (Elt F) → (⟨S1x56, .i32⟩ : BufTy).Contents (Elt F))
  :: StableHlo.nullary main_c_6 (constantI S_ 32 0#32)
  :: StableHlo.unary main_c_6 main_v22 (broadcastInDim S56x1 ![] bcast_S_S56x1 : (⟨S_, .i32⟩ : BufTy).Contents (Elt F) → (⟨S56x1, .i32⟩ : BufTy).Contents (Elt F))
  :: StableHlo.binary main_v20 main_v22 main_v23 (cmpi .slt : (⟨S56x1, .i32⟩ : BufTy).Contents (Elt F) → (⟨S56x1, .i32⟩ : BufTy).Contents (Elt F) → (⟨S56x1, .i1⟩ : BufTy).Contents (Elt F))
  :: StableHlo.nullary main_c_7 (constantI S_ 32 28#32)
  :: StableHlo.unary main_c_7 main_v24 (broadcastInDim S56x1 ![] bcast_S_S56x1 : (⟨S_, .i32⟩ : BufTy).Contents (Elt F) → (⟨S56x1, .i32⟩ : BufTy).Contents (Elt F))
  :: StableHlo.binary main_v20 main_v24 main_v25 (addi : (⟨S56x1, .i32⟩ : BufTy).Contents (Elt F) → (⟨S56x1, .i32⟩ : BufTy).Contents (Elt F) → (⟨S56x1, .i32⟩ : BufTy).Contents (Elt F))
  :: StableHlo.ternary main_v23 main_v25 main_v20 main_v26 (select : (⟨S56x1, .i1⟩ : BufTy).Contents (Elt F) → (⟨S56x1, .i32⟩ : BufTy).Contents (Elt F) → (⟨S56x1, .i32⟩ : BufTy).Contents (Elt F) → (⟨S56x1, .i32⟩ : BufTy).Contents (Elt F))
  :: StableHlo.nullary main_c_8 (constantI S_ 32 0#32)
  :: StableHlo.unary main_c_8 main_v27 (broadcastInDim S1x56 ![] bcast_S_S1x56 : (⟨S_, .i32⟩ : BufTy).Contents (Elt F) → (⟨S1x56, .i32⟩ : BufTy).Contents (Elt F))
  :: StableHlo.binary main_v21 main_v27 main_v28 (cmpi .slt : (⟨S1x56, .i32⟩ : BufTy).Contents (Elt F) → (⟨S1x56, .i32⟩ : BufTy).Contents (Elt F) → (⟨S1x56, .i1⟩ : BufTy).Contents (Elt F))
  :: StableHlo.nullary main_c_9 (constantI S_ 32 28#32)
  :: StableHlo.unary main_c_9 main_v29 (broadcastInDim S1x56 ![] bcast_S_S1x56 : (⟨S_, .i32⟩ : BufTy).Contents (Elt F) → (⟨S1x56, .i32⟩ : BufTy).Contents (Elt F))
  :: StableHlo.binary main_v21 main_v29 main_v30 (addi : (⟨S1x56, .i32⟩ : BufTy).Contents (Elt F) → (⟨S1x56, .i32⟩ : BufTy).Contents (Elt F) → (⟨S1x56, .i32⟩ : BufTy).Contents (Elt F))
  :: StableHlo.ternary main_v28 main_v30 main_v21 main_v31 (select : (⟨S1x56, .i1⟩ : BufTy).Contents (Elt F) → (⟨S1x56, .i32⟩ : BufTy).Contents (Elt F) → (⟨S1x56, .i32⟩ : BufTy).Contents (Elt F) → (⟨S1x56, .i32⟩ : BufTy).Contents (Elt F))
  :: StableHlo.unary main_v26 main_v32 (broadcastInDim S56x56 ![0, 1] bcast_S56x1_S56x56_0_1 : (⟨S56x1, .i32⟩ : BufTy).Contents (Elt F) → (⟨S56x56, .i32⟩ : BufTy).Contents (Elt F))
  :: StableHlo.unary main_v31 main_v33 (broadcastInDim S56x56 ![0, 1] bcast_S1x56_S56x56_0_1 : (⟨S1x56, .i32⟩ : BufTy).Contents (Elt F) → (⟨S56x56, .i32⟩ : BufTy).Contents (Elt F))
  :: StableHlo.unary main_v32 main_v34 (broadcastInDim S56x56x1 ![0, 1] bcast_S56x56_S56x56x1_0_1 : (⟨S56x56, .i32⟩ : BufTy).Contents (Elt F) → (⟨S56x56x1, .i32⟩ : BufTy).Contents (Elt F))
  :: StableHlo.unary main_v33 main_v35 (broadcastInDim S56x56x1 ![0, 1] bcast_S56x56_S56x56x1_0_1 : (⟨S56x56, .i32⟩ : BufTy).Contents (Elt F) → (⟨S56x56x1, .i32⟩ : BufTy).Contents (Elt F))
  :: [] )
theorem opsE1_sub : (opsE1 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub ..⟩

/-- The pairs of source positions joined, and the enlargement of the spatial table: 2 operations. -/
abbrev opsE2 : List (HloOp τ sig (Elt F)) :=
  ( StableHlo.binary main_v34 main_v35 main_v36 ((fun a b => concatenate S56x56x2 2 [⟨S56x56x1, a⟩, ⟨S56x56x1, b⟩] concatenates_S56x56x1_S56x56x1_S56x56x2_d2) : (⟨S56x56x1, .i32⟩ : BufTy).Contents (Elt F) → (⟨S56x56x1, .i32⟩ : BufTy).Contents (Elt F) → (⟨S56x56x2, .i32⟩ : BufTy).Contents (Elt F))
  :: StableHlo.binary main_v11 main_v36 main_v37 ((fun x i => Host.gather gather_S4x1x1x28x28_S56x56x2_S4x1x1x56x56_012_34_n_n_34_2_41111 x i) : (⟨S4x1x1x28x28, .f32⟩ : BufTy).Contents (Elt F) → (⟨S56x56x2, .i32⟩ : BufTy).Contents (Elt F) → (⟨S4x1x1x56x56, .f32⟩ : BufTy).Contents (Elt F))
  :: [] )
theorem opsE2_sub : (opsE2 : List (HloOp τ sig (Elt F))).Forall fun op => op.bufs ⊆ StableHlo.tcRefs τ sig :=
  ⟨StableHlo.binary_bufs_sub .., StableHlo.binary_bufs_sub ..⟩

/-- The wrapped labels and the zero column: 10 operations (the first window ends here). -/
abbrev opsE3 : List (HloOp τ sig (Elt F)) :=
  ( StableHlo.nullary main_c_10 (constantI S_ 32 0#32)
  :: StableHlo.unary main_c_10 main_v38 (broadcastInDim S64 ![] bcast_S_S64 : (⟨S_, .i32⟩ : BufTy).Contents (Elt F) → (⟨S64, .i32⟩ : BufTy).Contents (Elt F))
  :: StableHlo.binary main_arg1 main_v38 main_v39 (cmpi .slt : (⟨S64, .i32⟩ : BufTy).Contents (Elt F) → (⟨S64, .i32⟩ : BufTy).Contents (Elt F) → (⟨S64, .i1⟩ : BufTy).Contents (Elt F))
  :: StableHlo.nullary main_c_11 (constantI S_ 32 4#32)
  :: StableHlo.unary main_c_11 main_v40 (broadcastInDim S64 ![] bcast_S_S64 : (⟨S_, .i32⟩ : BufTy).Contents (Elt F) → (⟨S64, .i32⟩ : BufTy).Contents (Elt F))
  :: StableHlo.binary main_arg1 main_v40 main_v41 (addi : (⟨S64, .i32⟩ : BufTy).Contents (Elt F) → (⟨S64, .i32⟩ : BufTy).Contents (Elt F) → (⟨S64, .i32⟩ : BufTy).Contents (Elt F))
  :: StableHlo.ternary main_v39 main_v41 main_arg1 main_v42 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_c_12 (constantI S_ 32 0#32)
  :: StableHlo.unary main_c_12 main_v43 (broadcastInDim S64 ![] bcast_S_S64 : (⟨S_, .i32⟩ : BufTy).Contents (Elt F) → (⟨S64, .i32⟩ : BufTy).Contents (Elt F))
  :: StableHlo.unary main_v43 main_v44 (id : (⟨S64, .i32⟩ : BufTy).Contents (Elt F) → (⟨S64, .i32⟩ : BufTy).Contents (Elt F))
  :: [] )
theorem opsE3_sub : (opsE3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub ..⟩

/-- The label indices joined, and the channel gate gathered: 4 operations. -/
abbrev opsF1 : List (HloOp τ sig (Elt F)) :=
  ( StableHlo.unary main_v42 main_v45 (broadcastInDim S64x1 ![0] bcast_S64_S64x1_0 : (⟨S64, .i32⟩ : BufTy).Contents (Elt F) → (⟨S64x1, .i32⟩ : BufTy).Contents (Elt F))
  :: StableHlo.unary main_v44 main_v46 (broadcastInDim S64x1 ![0] bcast_S64_S64x1_0 : (⟨S64, .i32⟩ : BufTy).Contents (Elt F) → (⟨S64x1, .i32⟩ : BufTy).Contents (Elt F))
  :: StableHlo.binary main_v45 main_v46 main_v47 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F))
  :: StableHlo.binary main_v5 main_v47 main_v48 ((fun x i => Host.gather gather_S4x1x256x1x1_S64x2_S64x256x1x1_123_01_n_n_01_1_1125611 x i) : (⟨S4x1x256x1x1, .f32⟩ : BufTy).Contents (Elt F) → (⟨S64x2, .i32⟩ : BufTy).Contents (Elt F) → (⟨S64x256x1x1, .f32⟩ : BufTy).Contents (Elt F))
  :: [] )
theorem opsF1_sub : (opsF1 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub ..⟩

/-- The label indices once more, and the spatial gate gathered: 14 operations. -/
abbrev opsF2 : List (HloOp τ sig (Elt F)) :=
  ( StableHlo.nullary main_c_13 (constantI S_ 32 0#32)
  :: StableHlo.unary main_c_13 main_v49 (broadcastInDim S64 ![] bcast_S_S64 : (⟨S_, .i32⟩ : BufTy).Contents (Elt F) → (⟨S64, .i32⟩ : BufTy).Contents (Elt F))
  :: StableHlo.binary main_arg1 main_v49 main_v50 (cmpi .slt : (⟨S64, .i32⟩ : BufTy).Contents (Elt F) → (⟨S64, .i32⟩ : BufTy).Contents (Elt F) → (⟨S64, .i1⟩ : BufTy).Contents (Elt F))
  :: StableHlo.nullary main_c_14 (constantI S_ 32 4#32)
  :: StableHlo.unary main_c_14 main_v51 (broadcastInDim S64 ![] bcast_S_S64 : (⟨S_, .i32⟩ : BufTy).Contents (Elt F) → (⟨S64, .i32⟩ : BufTy).Contents (Elt F))
  :: StableHlo.binary main_arg1 main_v51 main_v52 (addi : (⟨S64, .i32⟩ : BufTy).Contents (Elt F) → (⟨S64, .i32⟩ : BufTy).Contents (Elt F) → (⟨S64, .i32⟩ : BufTy).Contents (Elt F))
  :: StableHlo.ternary main_v50 main_v52 main_arg1 main_v53 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_c_15 (constantI S_ 32 0#32)
  :: StableHlo.unary main_c_15 main_v54 (broadcastInDim S64 ![] bcast_S_S64 : (⟨S_, .i32⟩ : BufTy).Contents (Elt F) → (⟨S64, .i32⟩ : BufTy).Contents (Elt F))
  :: StableHlo.unary main_v54 main_v55 (id : (⟨S64, .i32⟩ : BufTy).Contents (Elt F) → (⟨S64, .i32⟩ : BufTy).Contents (Elt F))
  :: StableHlo.unary main_v53 main_v56 (broadcastInDim S64x1 ![0] bcast_S64_S64x1_0 : (⟨S64, .i32⟩ : BufTy).Contents (Elt F) → (⟨S64x1, .i32⟩ : BufTy).Contents (Elt F))
  :: StableHlo.unary main_v55 main_v57 (broadcastInDim S64x1 ![0] bcast_S64_S64x1_0 : (⟨S64, .i32⟩ : BufTy).Contents (Elt F) → (⟨S64x1, .i32⟩ : BufTy).Contents (Elt F))
  :: StableHlo.binary main_v56 main_v57 main_v58 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F))
  :: StableHlo.binary main_v37 main_v58 main_v59 ((fun x i => Host.gather gather_S4x1x1x56x56_S64x2_S64x1x56x56_123_01_n_n_01_1_1115656 x i) : (⟨S4x1x1x56x56, .f32⟩ : BufTy).Contents (Elt F) → (⟨S64x2, .i32⟩ : BufTy).Contents (Elt F) → (⟨S64x1x56x56, .f32⟩ : BufTy).Contents (Elt F))
  :: [] )
theorem opsF2_sub : (opsF2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.unary_bufs_sub .., StableHlo.binary_bufs_sub .., StableHlo.binary_bufs_sub ..⟩

/-- The two broadcasts and the two products that scale x: 4 operations. -/
abbrev opsF3 : List (HloOp τ sig (Elt F)) :=
  ( StableHlo.unary main_v48 main_v60 (broadcastInDim S64x256x56x56 ![0, 1, 2, 3] bcast_S64x256x1x1_S64x256x56x56_0_1_2_3 : (⟨S64x256x1x1, .f32⟩ : BufTy).Contents (Elt F) → (⟨S64x256x56x56, .f32⟩ : BufTy).Contents (Elt F))
  :: StableHlo.binary main_arg0 main_v60 main_v61 (mulf : (⟨S64x256x56x56, .f32⟩ : BufTy).Contents (Elt F) → (⟨S64x256x56x56, .f32⟩ : BufTy).Contents (Elt F) → (⟨S64x256x56x56, .f32⟩ : BufTy).Contents (Elt F))
  :: StableHlo.unary main_v59 main_v62 (broadcastInDim S64x256x56x56 ![0, 1, 2, 3] bcast_S64x1x56x56_S64x256x56x56_0_1_2_3 : (⟨S64x1x56x56, .f32⟩ : BufTy).Contents (Elt F) → (⟨S64x256x56x56, .f32⟩ : BufTy).Contents (Elt F))
  :: StableHlo.binary main_v61 main_v62 main_v63 (mulf : (⟨S64x256x56x56, .f32⟩ : BufTy).Contents (Elt F) → (⟨S64x256x56x56, .f32⟩ : BufTy).Contents (Elt F) → (⟨S64x256x56x56, .f32⟩ : BufTy).Contents (Elt F))
  :: [] )
theorem opsF3_sub : (opsF3 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub ..⟩

/-- The first printed window's operations (statements 1 to 60, the two calls unfolded). -/
abbrev part0 : List (HloOp τ sig (Elt F)) := opsA ++ (opsB ++ (opsC ++ (opsD ++ (opsE1 ++ (opsE2 ++ opsE3)))))
/-- The second printed window's operations (statements 61 to 83). -/
abbrev part1 : List (HloOp τ sig (Elt F)) := opsF1 ++ (opsF2 ++ opsF3)
/-- @main's 114 operations, in order. -/
abbrev ops : List (HloOp τ sig (Elt F)) := part0 ++ part1

set_option maxRecDepth 8192 in
set_option maxHeartbeats 4000000 in
/-- The first window is its operations run in order: each call's body unfolds to its own 17 operations on that
    call's buffers. -/
theorem main_part0_eq (c : Dev nD) : main_part0 (F := F) c = StableHlo.seq part0 := rfl

set_option maxRecDepth 8192 in
set_option maxHeartbeats 4000000 in
/-- The second window is its operations run in order. -/
theorem main_part1_eq (c : Dev nD) : main_part1 (F := F) c = StableHlo.seq part1 := rfl

set_option maxRecDepth 8192 in
/-- @main is the whole line: the two windows one after the other. -/
theorem main_eq (c : Dev nD) : main (F := F) c = StableHlo.seq ops := by
  simp only [ops, StableHlo.seq_append (l₁ := part0), ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ StableHlo.tcRefs τ sig :=
  List.forall_iff_forall_mem.mpr fun op h => by
    simp only [ops, part0, part1, List.mem_append] at h
    rcases h with (h | h | h | h | h | h | h) | (h | h | h)
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE1_sub op h, List.forall_iff_forall_mem.mp opsE2_sub op h,
      List.forall_iff_forall_mem.mp opsE3_sub op h, List.forall_iff_forall_mem.mp opsF1_sub op h,
      List.forall_iff_forall_mem.mp opsF2_sub op h, List.forall_iff_forall_mem.mp opsF3_sub op h]

/-- On every device, from any memory with zero counters: every weakly fair execution of @main terminates, and every
    final state has each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

end Cert.ReferenceIdeal.RefRun

end
-- ==== Proof.RefStages.lean ====
/-
  A program's host operations, read a stretch at a time.

  The host operations that build the two gates are cut into nine short stretches (`opsA` … `opsF2`). Over ANY
  contents `W` a stretch starts from, the few buffers it writes that a later stretch or a result reads are the
  named steps of `Gates` applied to `W` at the buffers the stretch itself reads (`A_v5` … `F2_v59`), and a buffer
  no operation of a stretch writes is left as it was (`keep…`: every operation writes one buffer of its own).
  Chained from contents `M` at the start (`W1` … `W9`): both floor divisions leave the source positions
  ⌊28·i / 56⌋; the enlargement reads the logistic spatial table at them; the two per-sample gathers read the two
  tables at the wrapped labels. After the nine stretches the channel table's buffer holds `Gates.chanTable`, the
  enlarged spatial table's `Gates.spatTable`, and the two gates' buffers `Gates.gateC` and `Gates.gateS` of
  `M` at the arguments (`W9_v5`, `W9_v37`, `W9_v48`, `W9_v59`).
-/
import proofs.«141464_j45870250721474_1_alg».proof.Proof.RefRun
import Idealize.ShloMosaic.Lib.Pipeline.Frame

noncomputable section

namespace Cert.ReferenceIdeal.Stages

open Idealize.ShloMosaic Idealize.ShloMosaic.TcCoe Idealize.SL.Sem Idealize.ShloMosaic.StableHlo
open Cert.ReferenceIdeal Cert.ReferenceIdeal.RefRun
open Cert.ReferenceIdeal.Facts₀

variable {F : FTy → Type} [FloatOps F]

/-- `after l W b = W b` for a literal line `l` none of whose operations writes `b`: every operation writes one
    buffer, and it is another one. -/
local macro "unwritten" : tactic => `(tactic| (
  refine after_of_forall_not_mem _ _ (List.forall_iff_forall_mem.mp ?_)
  simp only [opsA, opsB, opsC, opsD, opsE1, opsE2, opsE3, opsF1, opsF2, List.cons_append, List.nil_append, List.append_assoc, List.Forall,
    nullary_writes, unary_writes, binary_writes, ternary_writes, Finset.mem_singleton]
  repeat' apply And.intro
  all_goals exact devRef_ne_of_ne (by decide)))

/-! ## Each stretch read over ANY contents `W` it starts from -/

set_option maxHeartbeats 4000000

theorem A_v5 (W : Valuation τ sig (Elt F)) : after opsA W (main_v5 : DevRef τ sig) = Gates.chanTable (W (main_arg2 : DevRef τ sig)) := by
  simp only [opsA]; after_results; rfl
theorem A_v11 (W : Valuation τ sig (Elt F)) : after opsA W (main_v11 : DevRef τ sig) = Gates.spatLogistic (W (main_arg3 : DevRef τ sig)) := by
  simp only [opsA]; after_results; rfl
theorem A_v14 (W : Valuation τ sig (Elt F)) : after opsA W (main_v14 : DevRef τ sig) = Gates.scaledIota := by
  simp only [opsA]; after_results; rfl
theorem A_c3 (W : Valuation τ sig (Elt F)) : after opsA W (main_c_3 : DevRef τ sig) = constantI S_ 32 56#32 := by
  simp only [opsA]; after_results
theorem B_v15 (W : Valuation τ sig (Elt F)) :
    after opsB W (main_v15 : DevRef τ sig) = Gates.floorDiv (W (main_v14 : DevRef τ sig)) (id (W (main_c_3 : DevRef τ sig))) := by
  simp only [opsB]; after_results; rfl
theorem C_v18 (W : Valuation τ sig (Elt F)) : after opsC W (main_v18 : DevRef τ sig) = Gates.scaledIota := by
  simp only [opsC]; after_results; rfl
theorem C_c5 (W : Valuation τ sig (Elt F)) : after opsC W (main_c_5 : DevRef τ sig) = constantI S_ 32 56#32 := by
  simp only [opsC]; after_results
theorem D_v19 (W : Valuation τ sig (Elt F)) :
    after opsD W (main_v19 : DevRef τ sig) = Gates.floorDiv (W (main_v18 : DevRef τ sig)) (id (W (main_c_5 : DevRef τ sig))) := by
  simp only [opsD]; after_results; rfl
theorem E1_v34 (W : Valuation τ sig (Elt F)) : after opsE1 W (main_v34 : DevRef τ sig) = Gates.rowsCube (W (main_v15 : DevRef τ sig)) := by
  simp only [opsE1]; after_results; rfl
theorem E1_v35 (W : Valuation τ sig (Elt F)) : after opsE1 W (main_v35 : DevRef τ sig) = Gates.colsCube (W (main_v19 : DevRef τ sig)) := by
  simp only [opsE1]; after_results; rfl
theorem E2_v37 (W : Valuation τ sig (Elt F)) :
    after opsE2 W (main_v37 : DevRef τ sig) = Gates.enlarge (W (main_v11 : DevRef τ sig)) (Gates.pairs (W (main_v34 : DevRef τ sig)) (W (main_v35 : DevRef τ sig))) := by
  simp only [opsE2]; after_results; rfl
theorem E3_v42 (W : Valuation τ sig (Elt F)) : after opsE3 W (main_v42 : DevRef τ sig) = Gates.wrapLabel (W (main_arg1 : DevRef τ sig)) := by
  simp only [opsE3]; after_results; rfl
theorem E3_v44 (W : Valuation τ sig (Elt F)) : after opsE3 W (main_v44 : DevRef τ sig) = Gates.zeroCol := by
  simp only [opsE3]; after_results; rfl
theorem F1_v48 (W : Valuation τ sig (Elt F)) :
    after opsF1 W (main_v48 : DevRef τ sig) = Gates.pickC (W (main_v5 : DevRef τ sig)) (Gates.labelPairs (W (main_v42 : DevRef τ sig)) (W (main_v44 : DevRef τ sig))) := by
  simp only [opsF1]; after_results; rfl
theorem F2_v59 (W : Valuation τ sig (Elt F)) :
    after opsF2 W (main_v59 : DevRef τ sig) = Gates.pickS (W (main_v37 : DevRef τ sig)) (Gates.labelIdx (W (main_arg1 : DevRef τ sig))) := by
  simp only [opsF2]; after_results; rfl

/-! ## Buffers a run of stretches leaves alone -/

theorem keepCD_v15 (W : Valuation τ sig (Elt F)) : after opsD (after opsC W) (main_v15 : DevRef τ sig) = W (main_v15 : DevRef τ sig) := by
  simp only [← after_append]; unwritten
theorem keepBE1_v11 (W : Valuation τ sig (Elt F)) :
    after opsE1 (after opsD (after opsC (after opsB W))) (main_v11 : DevRef τ sig) = W (main_v11 : DevRef τ sig) := by
  simp only [← after_append]; unwritten
theorem keepBE3_v5 (W : Valuation τ sig (Elt F)) :
    after opsE3 (after opsE2 (after opsE1 (after opsD (after opsC (after opsB W))))) (main_v5 : DevRef τ sig) = W (main_v5 : DevRef τ sig) := by
  simp only [← after_append]; unwritten
theorem keepE3F1_v37 (W : Valuation τ sig (Elt F)) : after opsF1 (after opsE3 W) (main_v37 : DevRef τ sig) = W (main_v37 : DevRef τ sig) := by
  simp only [← after_append]; unwritten
theorem keepE3F1_arg1 (W : Valuation τ sig (Elt F)) : after opsF1 (after opsE3 W) (main_arg1 : DevRef τ sig) = W (main_arg1 : DevRef τ sig) := by
  simp only [← after_append]; unwritten
theorem keepF12_v5 (W : Valuation τ sig (Elt F)) : after opsF2 (after opsF1 W) (main_v5 : DevRef τ sig) = W (main_v5 : DevRef τ sig) := by
  simp only [← after_append]; unwritten
theorem keepF2_v37 (W : Valuation τ sig (Elt F)) : after opsF2 W (main_v37 : DevRef τ sig) = W (main_v37 : DevRef τ sig) := by unwritten
theorem keepF2_v48 (W : Valuation τ sig (Elt F)) : after opsF2 W (main_v48 : DevRef τ sig) = W (main_v48 : DevRef τ sig) := by unwritten
theorem keepAE2_arg1 (W : Valuation τ sig (Elt F)) :
    after opsE2 (after opsE1 (after opsD (after opsC (after opsB (after opsA W))))) (main_arg1 : DevRef τ sig) = W (main_arg1 : DevRef τ sig) := by
  simp only [← after_append]; unwritten

/-! ## The contents after each stretch, from contents `M` at the start -/

section Chain
variable (M : Valuation τ sig (Elt F))

/-- The contents after the first stretch, after the first two, … -/
abbrev W1 : Valuation τ sig (Elt F) := after opsA M
abbrev W2 : Valuation τ sig (Elt F) := after opsB (W1 M)
abbrev W3 : Valuation τ sig (Elt F) := after opsC (W2 M)
abbrev W4 : Valuation τ sig (Elt F) := after opsD (W3 M)
abbrev W5 : Valuation τ sig (Elt F) := after opsE1 (W4 M)
abbrev W6 : Valuation τ sig (Elt F) := after opsE2 (W5 M)
abbrev W7 : Valuation τ sig (Elt F) := after opsE3 (W6 M)
abbrev W8 : Valuation τ sig (Elt F) := after opsF1 (W7 M)
abbrev W9 : Valuation τ sig (Elt F) := after opsF2 (W8 M)

/-- The first floor division leaves the source positions. -/
theorem W2_v15 : W2 M (main_v15 : DevRef τ sig) = Gates.srcPos := by
  show after opsB (after opsA M) (main_v15 : DevRef τ sig) = _
  rw [B_v15, A_v14, A_c3]; rfl
/-- They are still there after the second. -/
theorem W4_v15 : W4 M (main_v15 : DevRef τ sig) = Gates.srcPos := by
  show after opsD (after opsC (W2 M)) (main_v15 : DevRef τ sig) = _
  rw [keepCD_v15]; exact W2_v15 M
/-- The second floor division leaves the same positions. -/
theorem W4_v19 : W4 M (main_v19 : DevRef τ sig) = Gates.srcPos := by
  show after opsD (after opsC (W2 M)) (main_v19 : DevRef τ sig) = _
  rw [D_v19, C_v18, C_c5]; rfl
theorem W5_v34 : W5 M (main_v34 : DevRef τ sig) = Gates.rowsCube Gates.srcPos := by
  show after opsE1 (W4 M) (main_v34 : DevRef τ sig) = _
  rw [E1_v34, W4_v15]
theorem W5_v35 : W5 M (main_v35 : DevRef τ sig) = Gates.colsCube Gates.srcPos := by
  show after opsE1 (W4 M) (main_v35 : DevRef τ sig) = _
  rw [E1_v35, W4_v19]
theorem W5_v11 : W5 M (main_v11 : DevRef τ sig) = Gates.spatLogistic (M (main_arg3 : DevRef τ sig)) := by
  show after opsE1 (after opsD (after opsC (after opsB (after opsA M)))) (main_v11 : DevRef τ sig) = _
  rw [keepBE1_v11, A_v11]
/-- The enlarged spatial table. -/
theorem W6_v37 : W6 M (main_v37 : DevRef τ sig) = Gates.spatTable (M (main_arg3 : DevRef τ sig)) := by
  show after opsE2 (W5 M) (main_v37 : DevRef τ sig) = _
  rw [E2_v37, W5_v11, W5_v34, W5_v35]; rfl
theorem W6_arg1 : W6 M (main_arg1 : DevRef τ sig) = M (main_arg1 : DevRef τ sig) := by
  show after opsE2 (after opsE1 (after opsD (after opsC (after opsB (after opsA M))))) (main_arg1 : DevRef τ sig) = _
  rw [keepAE2_arg1]
theorem W7_v42 : W7 M (main_v42 : DevRef τ sig) = Gates.wrapLabel (M (main_arg1 : DevRef τ sig)) := by
  show after opsE3 (W6 M) (main_v42 : DevRef τ sig) = _
  rw [E3_v42, W6_arg1]
theorem W7_v44 : W7 M (main_v44 : DevRef τ sig) = Gates.zeroCol := by
  show after opsE3 (W6 M) (main_v44 : DevRef τ sig) = _
  rw [E3_v44]
/-- The channel table, still there after the first window. -/
theorem W7_v5 : W7 M (main_v5 : DevRef τ sig) = Gates.chanTable (M (main_arg2 : DevRef τ sig)) := by
  show after opsE3 (after opsE2 (after opsE1 (after opsD (after opsC (after opsB (after opsA M)))))) (main_v5 : DevRef τ sig) = _
  rw [keepBE3_v5, A_v5]
/-- The channel gate. -/
theorem W8_v48 : W8 M (main_v48 : DevRef τ sig) = Gates.gateC (M (main_arg1 : DevRef τ sig)) (M (main_arg2 : DevRef τ sig)) := by
  show after opsF1 (W7 M) (main_v48 : DevRef τ sig) = _
  rw [F1_v48, W7_v5, W7_v42, W7_v44]; rfl
theorem W8_v37 : W8 M (main_v37 : DevRef τ sig) = Gates.spatTable (M (main_arg3 : DevRef τ sig)) := by
  show after opsF1 (after opsE3 (W6 M)) (main_v37 : DevRef τ sig) = _
  rw [keepE3F1_v37, W6_v37]
theorem W8_arg1 : W8 M (main_arg1 : DevRef τ sig) = M (main_arg1 : DevRef τ sig) := by
  show after opsF1 (after opsE3 (W6 M)) (main_arg1 : DevRef τ sig) = _
  rw [keepE3F1_arg1, W6_arg1]
/-- The spatial gate. -/
theorem W9_v59 : W9 M (main_v59 : DevRef τ sig) = Gates.gateS (M (main_arg1 : DevRef τ sig)) (M (main_arg3 : DevRef τ sig)) := by
  show after opsF2 (W8 M) (main_v59 : DevRef τ sig) = _
  rw [F2_v59, W8_v37, W8_arg1]; rfl
theorem W9_v48 : W9 M (main_v48 : DevRef τ sig) = Gates.gateC (M (main_arg1 : DevRef τ sig)) (M (main_arg2 : DevRef τ sig)) := by
  show after opsF2 (W8 M) (main_v48 : DevRef τ sig) = _
  rw [keepF2_v48, W8_v48]
theorem W9_v37 : W9 M (main_v37 : DevRef τ sig) = Gates.spatTable (M (main_arg3 : DevRef τ sig)) := by
  show after opsF2 (W8 M) (main_v37 : DevRef τ sig) = _
  rw [keepF2_v37, W8_v37]
theorem W9_v5 : W9 M (main_v5 : DevRef τ sig) = Gates.chanTable (M (main_arg2 : DevRef τ sig)) := by
  show after opsF2 (after opsF1 (W7 M)) (main_v5 : DevRef τ sig) = _
  rw [keepF12_v5, W7_v5]

end Chain

end Cert.ReferenceIdeal.Stages

end
-- ==== Proof.RefRead.lean ====
/-
  The reference's fold, read at its results.

  After the nine stretches that build the two gates (read in the previous module) the reference's last four
  operations broadcast each gate along the axes it lacks and multiply: the result is `Gates.scaled` of `x` and the
  two gates (`F3_v63`, `scaled_eq`). They leave the two tables' buffers alone (`chan_eq`, `spat_eq`), and no
  operation of the line writes an argument (`arg0_eq` … `arg3_eq`). With the run of the line (`RefRun.run_fold`)
  this is the reference's run read back (`run`).
-/
import proofs.«141464_j45870250721474_1_alg».proof.Proof.RefRun
import proofs.«141464_j45870250721474_1_alg».proof.Proof.RefStages
import Idealize.ShloMosaic.Lib.Pipeline.Frame

noncomputable section

namespace Cert.ReferenceIdeal.RefRead

open Idealize.ShloMosaic Idealize.ShloMosaic.TcCoe Idealize.SL.Sem Idealize.ShloMosaic.StableHlo
open Cert.ReferenceIdeal Cert.ReferenceIdeal.RefRun Cert.ReferenceIdeal.Stages
open Cert.ReferenceIdeal.Facts₀

variable {F : FTy → Type} [FloatOps F]

/-- `after l W b = W b` for a literal line `l` none of whose operations writes `b`: every operation writes one
    buffer, and it is another one. -/
local macro "unwritten" : tactic => `(tactic| (
  refine after_of_forall_not_mem _ _ (List.forall_iff_forall_mem.mp ?_)
  simp only [ops, part0, part1, opsA, opsB, opsC, opsD, opsE1, opsE2, opsE3, opsF1, opsF2, opsF3, List.cons_append, List.nil_append, List.append_assoc, List.Forall,
    nullary_writes, unary_writes, binary_writes, ternary_writes, Finset.mem_singleton]
  repeat' apply And.intro
  all_goals exact devRef_ne_of_ne (by decide)))

/-- The last four operations, over any contents `W` they start from: `x` scaled by the two gates' buffers. -/
theorem F3_v63 (W : Valuation τ sig (Elt F)) :
    after opsF3 W (main_v63 : DevRef τ sig) = Gates.scaled (W (main_arg0 : DevRef τ sig)) (W (main_v48 : DevRef τ sig)) (W (main_v59 : DevRef τ sig)) := by
  simp only [opsF3]; after_results; rfl

section Results
variable (M : Valuation τ sig (Elt F))

theorem W9_arg0 : W9 M (main_arg0 : DevRef τ sig) = M (main_arg0 : DevRef τ sig) := by
  show after opsF2 (after opsF1 (after opsE3 (after opsE2 (after opsE1 (after opsD (after opsC (after opsB (after opsA M)))))))) (main_arg0 : DevRef τ sig) = _
  simp only [← after_append]; unwritten

/-- The whole line's fold is the nine stretches' chain, then the last four operations. -/
theorem ops_eq : after ops M = after opsF3 (W9 M) := by
  simp only [ops, part0, part1, after_append]

/-- The result: `x` scaled by the two gates of the arguments. -/
theorem scaled_eq : after ops M (main_v63 : DevRef τ sig)
    = Gates.scaled (M (main_arg0 : DevRef τ sig)) (Gates.gateC (M (main_arg1 : DevRef τ sig)) (M (main_arg2 : DevRef τ sig))) (Gates.gateS (M (main_arg1 : DevRef τ sig)) (M (main_arg3 : DevRef τ sig))) := by
  rw [ops_eq, F3_v63, W9_arg0, W9_v48, W9_v59]
/-- The channel table. -/
theorem chan_eq : after ops M (main_v5 : DevRef τ sig) = Gates.chanTable (M (main_arg2 : DevRef τ sig)) := by
  rw [ops_eq, show after opsF3 (W9 M) (main_v5 : DevRef τ sig) = W9 M (main_v5 : DevRef τ sig) from by unwritten, W9_v5]
/-- The enlarged spatial table. -/
theorem spat_eq : after ops M (main_v37 : DevRef τ sig) = Gates.spatTable (M (main_arg3 : DevRef τ sig)) := by
  rw [ops_eq, show after opsF3 (W9 M) (main_v37 : DevRef τ sig) = W9 M (main_v37 : DevRef τ sig) from by unwritten, W9_v37]
/-- No operation writes an argument. -/
theorem arg0_eq : after ops M (main_arg0 : DevRef τ sig) = M (main_arg0 : DevRef τ sig) := by unwritten
theorem arg1_eq : after ops M (main_arg1 : DevRef τ sig) = M (main_arg1 : DevRef τ sig) := by unwritten
theorem arg2_eq : after ops M (main_arg2 : DevRef τ sig) = M (main_arg2 : DevRef τ sig) := by unwritten
theorem arg3_eq : after ops M (main_arg3 : DevRef τ sig) = M (main_arg3 : DevRef τ sig) := by unwritten

end Results

/-- On every device, from any memory with zero counters: every weakly fair execution of @main terminates with the
    result at `x` scaled by the two gates of the arguments, the two tables' buffers at the tables of the arguments,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63)
        = Gates.scaled (m ((c.tc : Thread nD τ).loc main_arg0)) (Gates.gateC (m ((c.tc : Thread nD τ).loc main_arg1)) (m ((c.tc : Thread nD τ).loc main_arg2))) (Gates.gateS (m ((c.tc : Thread nD τ).loc main_arg1)) (m ((c.tc : Thread nD τ).loc main_arg3)))
      ∧ r.2.mem ((c.tc : Thread nD τ).loc main_v5) = Gates.chanTable (m ((c.tc : Thread nD τ).loc main_arg2))
      ∧ r.2.mem ((c.tc : Thread nD τ).loc main_v37) = Gates.spatTable (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v63).trans (scaled_eq _), (h c main_v5).trans (chan_eq _), (h c main_v37).trans (spat_eq _),
        (h c main_arg0).trans (arg0_eq _), (h c main_arg1).trans (arg1_eq _), (h c main_arg2).trans (arg2_eq _),
        (h c main_arg3).trans (arg3_eq _)⟩)
    (run_fold m ρ)

end Cert.ReferenceIdeal.RefRead

end
-- ==== Proof.KernelStretches.lean ====
/-
  The kernel program's host operations before its region, cut into nine short stretches.

  Before its one pallas_call the kernel program runs 110 host operations: the two logistic tables, the
  nearest-neighbour source positions (two integer floor divisions, each a called function whose 17 operations run
  on that call's own buffers), the enlargement of the spatial table, the per-sample label indices and the two
  per-sample gathers. The generated frame folds them as five lists; here the same operations, in the same order,
  are cut where few values are live (`opsA` … `opsF2`, a cut before each joining of index columns), and
  `flat_eq` says the two cuttings are one line.
-/
import proofs.«141464_j45870250721474_1_alg».proof.Proof.Gen.KernelIdeal.Launch
import proofs.«141464_j45870250721474_1_alg».proof.Proof.Gates
import Idealize.ShloMosaic.Lib.StableHlo.Run

noncomputable section

namespace Cert.KernelIdeal.HostStretches

open Idealize.ShloMosaic Idealize.ShloMosaic.TcCoe Idealize.SL.Sem
open Cert.KernelIdeal
open Cert.KernelIdeal.Facts₀

variable {F : FTy → Type} [FloatOps F]

/-- The two logistic tables, the first scaled iota and its divisor: 21 operations. -/
abbrev opsA : List (HloOp τ sig (Elt F)) :=
  ( StableHlo.unary main_arg2 main_v0 (Host.negf : (⟨S4x1x256x1x1, .f32⟩ : BufTy).Contents (Elt F) → (⟨S4x1x256x1x1, .f32⟩ : BufTy).Contents (Elt F))
  :: StableHlo.unary main_v0 main_v1 (Host.exp : (⟨S4x1x256x1x1, .f32⟩ : BufTy).Contents (Elt F) → (⟨S4x1x256x1x1, .f32⟩ : BufTy).Contents (Elt F))
  :: StableHlo.nullary main_cst (constant S_ .f32 0x3F800000#32)
  :: StableHlo.unary main_cst main_v2 (broadcastInDim S4x1x256x1x1 ![] bcast_S_S4x1x256x1x1 : (⟨S_, .f32⟩ : BufTy).Contents (Elt F) → (⟨S4x1x256x1x1, .f32⟩ : BufTy).Contents (Elt F))
  :: StableHlo.binary main_v2 main_v1 main_v3 (addf : (⟨S4x1x256x1x1, .f32⟩ : BufTy).Contents (Elt F) → (⟨S4x1x256x1x1, .f32⟩ : BufTy).Contents (Elt F) → (⟨S4x1x256x1x1, .f32⟩ : BufTy).Contents (Elt F))
  :: StableHlo.nullary main_cst_0 (constant S_ .f32 0x3F800000#32)
  :: StableHlo.unary main_cst_0 main_v4 (broadcastInDim S4x1x256x1x1 ![] bcast_S_S4x1x256x1x1 : (⟨S_, .f32⟩ : BufTy).Contents (Elt F) → (⟨S4x1x256x1x1, .f32⟩ : BufTy).Contents (Elt F))
  :: StableHlo.binary main_v4 main_v3 main_v5 (Host.divf : (⟨S4x1x256x1x1, .f32⟩ : BufTy).Contents (Elt F) → (⟨S4x1x256x1x1, .f32⟩ : BufTy).Contents (Elt F) → (⟨S4x1x256x1x1, .f32⟩ : BufTy).Contents (Elt F))
  :: StableHlo.unary main_arg3 main_v6 (Host.negf : (⟨S4x1x1x28x28, .f32⟩ : BufTy).Contents (Elt F) → (⟨S4x1x1x28x28, .f32⟩ : BufTy).Contents (Elt F))
  :: StableHlo.unary main_v6 main_v7 (Host.exp : (⟨S4x1x1x28x28, .f32⟩ : BufTy).Contents (Elt F) → (⟨S4x1x1x28x28, .f32⟩ : BufTy).Contents (Elt F))
  :: StableHlo.nullary main_cst_1 (constant S_ .f32 0x3F800000#32)
  :: StableHlo.unary main_cst_1 main_v8 (broadcastInDim S4x1x1x28x28 ![] bcast_S_S4x1x1x28x28 : (⟨S_, .f32⟩ : BufTy).Contents (Elt F) → (⟨S4x1x1x28x28, .f32⟩ : BufTy).Contents (Elt F))
  :: StableHlo.binary main_v8 main_v7 main_v9 (addf : (⟨S4x1x1x28x28, .f32⟩ : BufTy).Contents (Elt F) → (⟨S4x1x1x28x28, .f32⟩ : BufTy).Contents (Elt F) → (⟨S4x1x1x28x28, .f32⟩ : BufTy).Contents (Elt F))
  :: StableHlo.nullary main_cst_2 (constant S_ .f32 0x3F800000#32)
  :: StableHlo.unary main_cst_2 main_v10 (broadcastInDim S4x1x1x28x28 ![] bcast_S_S4x1x1x28x28 : (⟨S_, .f32⟩ : BufTy).Contents (Elt F) → (⟨S4x1x1x28x28, .f32⟩ : BufTy).Contents (Elt F))
  :: StableHlo.binary main_v10 main_v9 main_v11 (Host.divf : (⟨S4x1x1x28x28, .f32⟩ : BufTy).Contents (Elt F) → (⟨S4x1x1x28x28, .f32⟩ : BufTy).Contents (Elt F) → (⟨S4x1x1x28x28, .f32⟩ : BufTy).Contents (Elt F))
  :: StableHlo.nullary main_v12 (iotaInDim S56 32 0)
  :: StableHlo.nullary main_c (constantI S_ 32 28#32)
  :: StableHlo.unary main_c main_v13 (broadcastInDim S56 ![] bcast_S_S56 : (⟨S_, .i32⟩ : BufTy).Contents (Elt F) → (⟨S56, .i32⟩ : BufTy).Contents (Elt F))
  :: StableHlo.binary main_v12 main_v13 main_v14 (muli : (⟨S56, .i32⟩ : BufTy).Contents (Elt F) → (⟨S56, .i32⟩ : BufTy).Contents (Elt F) → (⟨S56, .i32⟩ : BufTy).Contents (Elt F))
  :: StableHlo.nullary main_c_3 (constantI S_ 32 56#32)
  :: [] )

/-- The first floor division's 17 operations (source positions of the rows), run on that call's own buffers. -/
abbrev opsB : List (HloOp τ sig (Elt F)) :=
  ( StableHlo.TRef.unary (.of main_c_3 : StableHlo.TRef sig ⟨S_, .i32⟩) (.of main_call0_v0 : StableHlo.TRef sig ⟨S_, .i32⟩) id
  :: StableHlo.TRef.unary (.of main_call0_v0 : StableHlo.TRef sig ⟨S_, .i32⟩) (.of main_call0_v1 : StableHlo.TRef sig ⟨S56, .i32⟩) (broadcastInDim S56 ![] bcast_S_S56)
  :: StableHlo.TRef.binary (.of main_v14 : StableHlo.TRef sig ⟨S56, .i32⟩) (.of main_call0_v1 : StableHlo.TRef sig ⟨S56, .i32⟩) (.of main_call0_v2 : StableHlo.TRef sig ⟨S56, .i32⟩) Host.divsi
  :: StableHlo.TRef.unary (.of main_v14 : StableHlo.TRef sig ⟨S56, .i32⟩) (.of main_call0_v3 : StableHlo.TRef sig ⟨S56, .i32⟩) signi
  :: StableHlo.TRef.unary (.of main_call0_v0 : StableHlo.TRef sig ⟨S_, .i32⟩) (.of main_call0_v4 : StableHlo.TRef sig ⟨S_, .i32⟩) signi
  :: StableHlo.TRef.unary (.of main_call0_v4 : StableHlo.TRef sig ⟨S_, .i32⟩) (.of main_call0_v5 : StableHlo.TRef sig ⟨S56, .i32⟩) (broadcastInDim S56 ![] bcast_S_S56)
  :: StableHlo.TRef.binary (.of main_call0_v3 : StableHlo.TRef sig ⟨S56, .i32⟩) (.of main_call0_v5 : StableHlo.TRef sig ⟨S56, .i32⟩) (.of main_call0_v6 : StableHlo.TRef sig ⟨S56, .i1⟩) (cmpi .ne)
  :: StableHlo.TRef.unary (.of main_call0_v0 : StableHlo.TRef sig ⟨S_, .i32⟩) (.of main_call0_v7 : StableHlo.TRef sig ⟨S56, .i32⟩) (broadcastInDim S56 ![] bcast_S_S56)
  :: StableHlo.TRef.binary (.of main_v14 : StableHlo.TRef sig ⟨S56, .i32⟩) (.of main_call0_v7 : StableHlo.TRef sig ⟨S56, .i32⟩) (.of main_call0_v8 : StableHlo.TRef sig ⟨S56, .i32⟩) Host.remsi
  :: StableHlo.TRef.nullary (.of main_call0_c : StableHlo.TRef sig ⟨S_, .i32⟩) (constantI S_ 32 0#32)
  :: StableHlo.TRef.unary (.of main_call0_c : StableHlo.TRef sig ⟨S_, .i32⟩) (.of main_call0_v9 : StableHlo.TRef sig ⟨S56, .i32⟩) (broadcastInDim S56 ![] bcast_S_S56)
  :: StableHlo.TRef.binary (.of main_call0_v8 : StableHlo.TRef sig ⟨S56, .i32⟩) (.of main_call0_v9 : StableHlo.TRef sig ⟨S56, .i32⟩) (.of main_call0_v10 : StableHlo.TRef sig ⟨S56, .i1⟩) (cmpi .ne)
  :: StableHlo.TRef.binary (.of main_call0_v6 : StableHlo.TRef sig ⟨S56, .i1⟩) (.of main_call0_v10 : StableHlo.TRef sig ⟨S56, .i1⟩) (.of main_call0_v11 : StableHlo.TRef sig ⟨S56, .i1⟩) andi
  :: StableHlo.TRef.nullary (.of main_call0_c_0 : StableHlo.TRef sig ⟨S_, .i32⟩) (constantI S_ 32 1#32)
  :: StableHlo.TRef.unary (.of main_call0_c_0 : StableHlo.TRef sig ⟨S_, .i32⟩) (.of main_call0_v12 : StableHlo.TRef sig ⟨S56, .i32⟩) (broadcastInDim S56 ![] bcast_S_S56)
  :: StableHlo.TRef.binary (.of main_call0_v2 : StableHlo.TRef sig ⟨S56, .i32⟩) (.of main_call0_v12 : StableHlo.TRef sig ⟨S56, .i32⟩) (.of main_call0_v13 : StableHlo.TRef sig ⟨S56, .i32⟩) subi
  :: StableHlo.TRef.ternary (.of main_call0_v11 : StableHlo.TRef sig ⟨S56, .i1⟩) (.of main_call0_v13 : StableHlo.TRef sig ⟨S56, .i32⟩) (.of main_call0_v2 : StableHlo.TRef sig ⟨S56, .i32⟩) (.of main_v15 : StableHlo.TRef sig ⟨S56, .i32⟩) select
  :: [] )

/-- The second scaled iota and its divisor: 5 operations. -/
abbrev opsC : List (HloOp τ sig (Elt F)) :=
  ( StableHlo.nullary main_v16 (iotaInDim S56 32 0)
  :: StableHlo.nullary main_c_4 (constantI S_ 32 28#32)
  :: StableHlo.unary main_c_4 main_v17 (broadcastInDim S56 ![] bcast_S_S56 : (⟨S_, .i32⟩ : BufTy).Contents (Elt F) → (⟨S56, .i32⟩ : BufTy).Contents (Elt F))
  :: StableHlo.binary main_v16 main_v17 main_v18 (muli : (⟨S56, .i32⟩ : BufTy).Contents (Elt F) → (⟨S56, .i32⟩ : BufTy).Contents (Elt F) → (⟨S56, .i32⟩ : BufTy).Contents (Elt F))
  :: StableHlo.nullary main_c_5 (constantI S_ 32 56#32)
  :: [] )

/-- The second floor division's 17 operations (source positions of the columns). -/
abbrev opsD : List (HloOp τ sig (Elt F)) :=
  ( StableHlo.TRef.unary (.of main_c_5 : StableHlo.TRef sig ⟨S_, .i32⟩) (.of main_call1_v0 : StableHlo.TRef sig ⟨S_, .i32⟩) id
  :: StableHlo.TRef.unary (.of main_call1_v0 : StableHlo.TRef sig ⟨S_, .i32⟩) (.of main_call1_v1 : StableHlo.TRef sig ⟨S56, .i32⟩) (broadcastInDim S56 ![] bcast_S_S56)
  :: StableHlo.TRef.binary (.of main_v18 : StableHlo.TRef sig ⟨S56, .i32⟩) (.of main_call1_v1 : StableHlo.TRef sig ⟨S56, .i32⟩) (.of main_call1_v2 : StableHlo.TRef sig ⟨S56, .i32⟩) Host.divsi
  :: StableHlo.TRef.unary (.of main_v18 : StableHlo.TRef sig ⟨S56, .i32⟩) (.of main_call1_v3 : StableHlo.TRef sig ⟨S56, .i32⟩) signi
  :: StableHlo.TRef.unary (.of main_call1_v0 : StableHlo.TRef sig ⟨S_, .i32⟩) (.of main_call1_v4 : StableHlo.TRef sig ⟨S_, .i32⟩) signi
  :: StableHlo.TRef.unary (.of main_call1_v4 : StableHlo.TRef sig ⟨S_, .i32⟩) (.of main_call1_v5 : StableHlo.TRef sig ⟨S56, .i32⟩) (broadcastInDim S56 ![] bcast_S_S56)
  :: StableHlo.TRef.binary (.of main_call1_v3 : StableHlo.TRef sig ⟨S56, .i32⟩) (.of main_call1_v5 : StableHlo.TRef sig ⟨S56, .i32⟩) (.of main_call1_v6 : StableHlo.TRef sig ⟨S56, .i1⟩) (cmpi .ne)
  :: StableHlo.TRef.unary (.of main_call1_v0 : StableHlo.TRef sig ⟨S_, .i32⟩) (.of main_call1_v7 : StableHlo.TRef sig ⟨S56, .i32⟩) (broadcastInDim S56 ![] bcast_S_S56)
  :: StableHlo.TRef.binary (.of main_v18 : StableHlo.TRef sig ⟨S56, .i32⟩) (.of main_call1_v7 : StableHlo.TRef sig ⟨S56, .i32⟩) (.of main_call1_v8 : StableHlo.TRef sig ⟨S56, .i32⟩) Host.remsi
  :: StableHlo.TRef.nullary (.of main_call1_c : StableHlo.TRef sig ⟨S_, .i32⟩) (constantI S_ 32 0#32)
  :: StableHlo.TRef.unary (.of main_call1_c : StableHlo.TRef sig ⟨S_, .i32⟩) (.of main_call1_v9 : StableHlo.TRef sig ⟨S56, .i32⟩) (broadcastInDim S56 ![] bcast_S_S56)
  :: StableHlo.TRef.binary (.of main_call1_v8 : StableHlo.TRef sig ⟨S56, .i32⟩) (.of main_call1_v9 : StableHlo.TRef sig ⟨S56, .i32⟩) (.of main_call1_v10 : StableHlo.TRef sig ⟨S56, .i1⟩) (cmpi .ne)
  :: StableHlo.TRef.binary (.of main_call1_v6 : StableHlo.TRef sig ⟨S56, .i1⟩) (.of main_call1_v10 : StableHlo.TRef sig ⟨S56, .i1⟩) (.of main_call1_v11 : StableHlo.TRef sig ⟨S56, .i1⟩) andi
  :: StableHlo.TRef.nullary (.of main_call1_c_0 : StableHlo.TRef sig ⟨S_, .i32⟩) (constantI S_ 32 1#32)
  :: StableHlo.TRef.unary (.of main_call1_c_0 : StableHlo.TRef sig ⟨S_, .i32⟩) (.of main_call1_v12 : StableHlo.TRef sig ⟨S56, .i32⟩) (broadcastInDim S56 ![] bcast_S_S56)
  :: StableHlo.TRef.binary (.of main_call1_v2 : StableHlo.TRef sig ⟨S56, .i32⟩) (.of main_call1_v12 : StableHlo.TRef sig ⟨S56, .i32⟩) (.of main_call1_v13 : StableHlo.TRef sig ⟨S56, .i32⟩) subi
  :: StableHlo.TRef.ternary (.of main_call1_v11 : StableHlo.TRef sig ⟨S56, .i1⟩) (.of main_call1_v13 : StableHlo.TRef sig ⟨S56, .i32⟩) (.of main_call1_v2 : StableHlo.TRef sig ⟨S56, .i32⟩) (.of main_v19 : StableHlo.TRef sig ⟨S56, .i32⟩) select
  :: [] )

/-- The wrapped source rows and columns, each broadcast to [56,56,1]: 20 operations. -/
abbrev opsE1 : List (HloOp τ sig (Elt F)) :=
  ( StableHlo.unary main_v15 main_v20 (broadcastInDim S56x1 ![0] bcast_S56_S56x1_0 : (⟨S56, .i32⟩ : BufTy).Contents (Elt F) → (⟨S56x1, .i32⟩ : BufTy).Contents (Elt F))
  :: StableHlo.unary main_v19 main_v21 (broadcastInDim S1x56 ![1] bcast_S56_S1x56_1 : (⟨S56, .i32⟩ : BufTy).Contents (Elt F) → (⟨S1x56, .i32⟩ : BufTy).Contents (Elt F))
  :: StableHlo.nullary main_c_6 (constantI S_ 32 0#32)
  :: StableHlo.unary main_c_6 main_v22 (broadcastInDim S56x1 ![] bcast_S_S56x1 : (⟨S_, .i32⟩ : BufTy).Contents (Elt F) → (⟨S56x1, .i32⟩ : BufTy).Contents (Elt F))
  :: StableHlo.binary main_v20 main_v22 main_v23 (cmpi .slt : (⟨S56x1, .i32⟩ : BufTy).Contents (Elt F) → (⟨S56x1, .i32⟩ : BufTy).Contents (Elt F) → (⟨S56x1, .i1⟩ : BufTy).Contents (Elt F))
  :: StableHlo.nullary main_c_7 (constantI S_ 32 28#32)
  :: StableHlo.unary main_c_7 main_v24 (broadcastInDim S56x1 ![] bcast_S_S56x1 : (⟨S_, .i32⟩ : BufTy).Contents (Elt F) → (⟨S56x1, .i32⟩ : BufTy).Contents (Elt F))
  :: StableHlo.binary main_v20 main_v24 main_v25 (addi : (⟨S56x1, .i32⟩ : BufTy).Contents (Elt F) → (⟨S56x1, .i32⟩ : BufTy).Contents (Elt F) → (⟨S56x1, .i32⟩ : BufTy).Contents (Elt F))
  :: StableHlo.ternary main_v23 main_v25 main_v20 main_v26 (select : (⟨S56x1, .i1⟩ : BufTy).Contents (Elt F) → (⟨S56x1, .i32⟩ : BufTy).Contents (Elt F) → (⟨S56x1, .i32⟩ : BufTy).Contents (Elt F) → (⟨S56x1, .i32⟩ : BufTy).Contents (Elt F))
  :: StableHlo.nullary main_c_8 (constantI S_ 32 0#32)
  :: StableHlo.unary main_c_8 main_v27 (broadcastInDim S1x56 ![] bcast_S_S1x56 : (⟨S_, .i32⟩ : BufTy).Contents (Elt F) → (⟨S1x56, .i32⟩ : BufTy).Contents (Elt F))
  :: StableHlo.binary main_v21 main_v27 main_v28 (cmpi .slt : (⟨S1x56, .i32⟩ : BufTy).Contents (Elt F) → (⟨S1x56, .i32⟩ : BufTy).Contents (Elt F) → (⟨S1x56, .i1⟩ : BufTy).Contents (Elt F))
  :: StableHlo.nullary main_c_9 (constantI S_ 32 28#32)
  :: StableHlo.unary main_c_9 main_v29 (broadcastInDim S1x56 ![] bcast_S_S1x56 : (⟨S_, .i32⟩ : BufTy).Contents (Elt F) → (⟨S1x56, .i32⟩ : BufTy).Contents (Elt F))
  :: StableHlo.binary main_v21 main_v29 main_v30 (addi : (⟨S1x56, .i32⟩ : BufTy).Contents (Elt F) → (⟨S1x56, .i32⟩ : BufTy).Contents (Elt F) → (⟨S1x56, .i32⟩ : BufTy).Contents (Elt F))
  :: StableHlo.ternary main_v28 main_v30 main_v21 main_v31 (select : (⟨S1x56, .i1⟩ : BufTy).Contents (Elt F) → (⟨S1x56, .i32⟩ : BufTy).Contents (Elt F) → (⟨S1x56, .i32⟩ : BufTy).Contents (Elt F) → (⟨S1x56, .i32⟩ : BufTy).Contents (Elt F))
  :: StableHlo.unary main_v26 main_v32 (broadcastInDim S56x56 ![0, 1] bcast_S56x1_S56x56_0_1 : (⟨S56x1, .i32⟩ : BufTy).Contents (Elt F) → (⟨S56x56, .i32⟩ : BufTy).Contents (Elt F))
  :: StableHlo.unary main_v31 main_v33 (broadcastInDim S56x56 ![0, 1] bcast_S1x56_S56x56_0_1 : (⟨S1x56, .i32⟩ : BufTy).Contents (Elt F) → (⟨S56x56, .i32⟩ : BufTy).Contents (Elt F))
  :: StableHlo.unary main_v32 main_v34 (broadcastInDim S56x56x1 ![0, 1] bcast_S56x56_S56x56x1_0_1 : (⟨S56x56, .i32⟩ : BufTy).Contents (Elt F) → (⟨S56x56x1, .i32⟩ : BufTy).Contents (Elt F))
  :: StableHlo.unary main_v33 main_v35 (broadcastInDim S56x56x1 ![0, 1] bcast_S56x56_S56x56x1_0_1 : (⟨S56x56, .i32⟩ : BufTy).Contents (Elt F) → (⟨S56x56x1, .i32⟩ : BufTy).Contents (Elt F))
  :: [] )

/-- The pairs of source positions joined, and the enlargement of the spatial table: 2 operations. -/
abbrev opsE2 : List (HloOp τ sig (Elt F)) :=
  ( StableHlo.binary main_v34 main_v35 main_v36 ((fun a b => concatenate S56x56x2 2 [⟨S56x56x1, a⟩, ⟨S56x56x1, b⟩] concatenates_S56x56x1_S56x56x1_S56x56x2_d2) : (⟨S56x56x1, .i32⟩ : BufTy).Contents (Elt F) → (⟨S56x56x1, .i32⟩ : BufTy).Contents (Elt F) → (⟨S56x56x2, .i32⟩ : BufTy).Contents (Elt F))
  :: StableHlo.binary main_v11 main_v36 main_v37 ((fun x i => Host.gather gather_S4x1x1x28x28_S56x56x2_S4x1x1x56x56_012_34_n_n_34_2_41111 x i) : (⟨S4x1x1x28x28, .f32⟩ : BufTy).Contents (Elt F) → (⟨S56x56x2, .i32⟩ : BufTy).Contents (Elt F) → (⟨S4x1x1x56x56, .f32⟩ : BufTy).Contents (Elt F))
  :: [] )

/-- The wrapped labels and the zero column: 10 operations. -/
abbrev opsE3 : List (HloOp τ sig (Elt F)) :=
  ( StableHlo.nullary main_c_10 (constantI S_ 32 0#32)
  :: StableHlo.unary main_c_10 main_v38 (broadcastInDim S64 ![] bcast_S_S64 : (⟨S_, .i32⟩ : BufTy).Contents (Elt F) → (⟨S64, .i32⟩ : BufTy).Contents (Elt F))
  :: StableHlo.binary main_arg1 main_v38 main_v39 (cmpi .slt : (⟨S64, .i32⟩ : BufTy).Contents (Elt F) → (⟨S64, .i32⟩ : BufTy).Contents (Elt F) → (⟨S64, .i1⟩ : BufTy).Contents (Elt F))
  :: StableHlo.nullary main_c_11 (constantI S_ 32 4#32)
  :: StableHlo.unary main_c_11 main_v40 (broadcastInDim S64 ![] bcast_S_S64 : (⟨S_, .i32⟩ : BufTy).Contents (Elt F) → (⟨S64, .i32⟩ : BufTy).Contents (Elt F))
  :: StableHlo.binary main_arg1 main_v40 main_v41 (addi : (⟨S64, .i32⟩ : BufTy).Contents (Elt F) → (⟨S64, .i32⟩ : BufTy).Contents (Elt F) → (⟨S64, .i32⟩ : BufTy).Contents (Elt F))
  :: StableHlo.ternary main_v39 main_v41 main_arg1 main_v42 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_c_12 (constantI S_ 32 0#32)
  :: StableHlo.unary main_c_12 main_v43 (broadcastInDim S64 ![] bcast_S_S64 : (⟨S_, .i32⟩ : BufTy).Contents (Elt F) → (⟨S64, .i32⟩ : BufTy).Contents (Elt F))
  :: StableHlo.unary main_v43 main_v44 (id : (⟨S64, .i32⟩ : BufTy).Contents (Elt F) → (⟨S64, .i32⟩ : BufTy).Contents (Elt F))
  :: [] )

/-- The label indices joined, and the channel gate gathered: 4 operations. -/
abbrev opsF1 : List (HloOp τ sig (Elt F)) :=
  ( StableHlo.unary main_v42 main_v45 (broadcastInDim S64x1 ![0] bcast_S64_S64x1_0 : (⟨S64, .i32⟩ : BufTy).Contents (Elt F) → (⟨S64x1, .i32⟩ : BufTy).Contents (Elt F))
  :: StableHlo.unary main_v44 main_v46 (broadcastInDim S64x1 ![0] bcast_S64_S64x1_0 : (⟨S64, .i32⟩ : BufTy).Contents (Elt F) → (⟨S64x1, .i32⟩ : BufTy).Contents (Elt F))
  :: StableHlo.binary main_v45 main_v46 main_v47 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F))
  :: StableHlo.binary main_v5 main_v47 main_v48 ((fun x i => Host.gather gather_S4x1x256x1x1_S64x2_S64x256x1x1_123_01_n_n_01_1_1125611 x i) : (⟨S4x1x256x1x1, .f32⟩ : BufTy).Contents (Elt F) → (⟨S64x2, .i32⟩ : BufTy).Contents (Elt F) → (⟨S64x256x1x1, .f32⟩ : BufTy).Contents (Elt F))
  :: [] )

/-- The label indices once more, and the spatial gate gathered: 14 operations. -/
abbrev opsF2 : List (HloOp τ sig (Elt F)) :=
  ( StableHlo.nullary main_c_13 (constantI S_ 32 0#32)
  :: StableHlo.unary main_c_13 main_v49 (broadcastInDim S64 ![] bcast_S_S64 : (⟨S_, .i32⟩ : BufTy).Contents (Elt F) → (⟨S64, .i32⟩ : BufTy).Contents (Elt F))
  :: StableHlo.binary main_arg1 main_v49 main_v50 (cmpi .slt : (⟨S64, .i32⟩ : BufTy).Contents (Elt F) → (⟨S64, .i32⟩ : BufTy).Contents (Elt F) → (⟨S64, .i1⟩ : BufTy).Contents (Elt F))
  :: StableHlo.nullary main_c_14 (constantI S_ 32 4#32)
  :: StableHlo.unary main_c_14 main_v51 (broadcastInDim S64 ![] bcast_S_S64 : (⟨S_, .i32⟩ : BufTy).Contents (Elt F) → (⟨S64, .i32⟩ : BufTy).Contents (Elt F))
  :: StableHlo.binary main_arg1 main_v51 main_v52 (addi : (⟨S64, .i32⟩ : BufTy).Contents (Elt F) → (⟨S64, .i32⟩ : BufTy).Contents (Elt F) → (⟨S64, .i32⟩ : BufTy).Contents (Elt F))
  :: StableHlo.ternary main_v50 main_v52 main_arg1 main_v53 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_c_15 (constantI S_ 32 0#32)
  :: StableHlo.unary main_c_15 main_v54 (broadcastInDim S64 ![] bcast_S_S64 : (⟨S_, .i32⟩ : BufTy).Contents (Elt F) → (⟨S64, .i32⟩ : BufTy).Contents (Elt F))
  :: StableHlo.unary main_v54 main_v55 (id : (⟨S64, .i32⟩ : BufTy).Contents (Elt F) → (⟨S64, .i32⟩ : BufTy).Contents (Elt F))
  :: StableHlo.unary main_v53 main_v56 (broadcastInDim S64x1 ![0] bcast_S64_S64x1_0 : (⟨S64, .i32⟩ : BufTy).Contents (Elt F) → (⟨S64x1, .i32⟩ : BufTy).Contents (Elt F))
  :: StableHlo.unary main_v55 main_v57 (broadcastInDim S64x1 ![0] bcast_S64_S64x1_0 : (⟨S64, .i32⟩ : BufTy).Contents (Elt F) → (⟨S64x1, .i32⟩ : BufTy).Contents (Elt F))
  :: StableHlo.binary main_v56 main_v57 main_v58 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F))
  :: StableHlo.binary main_v37 main_v58 main_v59 ((fun x i => Host.gather gather_S4x1x1x56x56_S64x2_S64x1x56x56_123_01_n_n_01_1_1115656 x i) : (⟨S4x1x1x56x56, .f32⟩ : BufTy).Contents (Elt F) → (⟨S64x2, .i32⟩ : BufTy).Contents (Elt F) → (⟨S64x1x56x56, .f32⟩ : BufTy).Contents (Elt F))
  :: [] )

set_option maxRecDepth 8192 in
/-- The frame's five lists of host operations, joined, are the nine stretches in order. -/
theorem flat_eq :
    List.flatten [(Gen.hostOps0 : List (HloOp τ sig (Elt F))), Gen.hostOps0_1, Gen.hostOps0_2, Gen.hostOps0_3, Gen.hostOps0_4]
      = opsA ++ (opsB ++ (opsC ++ (opsD ++ (opsE1 ++ (opsE2 ++ (opsE3 ++ (opsF1 ++ opsF2))))))) := rfl

end Cert.KernelIdeal.HostStretches

end
-- ==== Proof.KernelStages.lean ====
import proofs.«141464_j45870250721474_1_alg».proof.Proof.KernelStretches
import Idealize.ShloMosaic.Lib.Pipeline.Frame

noncomputable section

namespace Cert.KernelIdeal.Stages

open Idealize.ShloMosaic Idealize.ShloMosaic.TcCoe Idealize.SL.Sem Idealize.ShloMosaic.StableHlo
open Cert.KernelIdeal Cert.KernelIdeal.HostStretches
open Cert.KernelIdeal.Facts₀

variable {F : FTy → Type} [FloatOps F]

/-- `after l W b = W b` for a literal line `l` none of whose operations writes `b`: every operation writes one
    buffer, and it is another one. -/
local macro "unwritten" : tactic => `(tactic| (
  refine after_of_forall_not_mem _ _ (List.forall_iff_forall_mem.mp ?_)
  simp only [opsA, opsB, opsC, opsD, opsE1, opsE2, opsE3, opsF1, opsF2, List.cons_append, List.nil_append, List.append_assoc, List.Forall,
    nullary_writes, unary_writes, binary_writes, ternary_writes, Finset.mem_singleton]
  repeat' apply And.intro
  all_goals exact devRef_ne_of_ne (by decide)))

/-! ## Each stretch read over ANY contents `W` it starts from -/

set_option maxHeartbeats 4000000

theorem A_v5 (W : Valuation τ sig (Elt F)) : after opsA W (main_v5 : DevRef τ sig) = Gates.chanTable (W (main_arg2 : DevRef τ sig)) := by
  simp only [opsA]; after_results; rfl
theorem A_v11 (W : Valuation τ sig (Elt F)) : after opsA W (main_v11 : DevRef τ sig) = Gates.spatLogistic (W (main_arg3 : DevRef τ sig)) := by
  simp only [opsA]; after_results; rfl
theorem A_v14 (W : Valuation τ sig (Elt F)) : after opsA W (main_v14 : DevRef τ sig) = Gates.scaledIota := by
  simp only [opsA]; after_results; rfl
theorem A_c3 (W : Valuation τ sig (Elt F)) : after opsA W (main_c_3 : DevRef τ sig) = constantI S_ 32 56#32 := by
  simp only [opsA]; after_results
theorem B_v15 (W : Valuation τ sig (Elt F)) :
    after opsB W (main_v15 : DevRef τ sig) = Gates.floorDiv (W (main_v14 : DevRef τ sig)) (id (W (main_c_3 : DevRef τ sig))) := by
  simp only [opsB]; after_results; rfl
theorem C_v18 (W : Valuation τ sig (Elt F)) : after opsC W (main_v18 : DevRef τ sig) = Gates.scaledIota := by
  simp only [opsC]; after_results; rfl
theorem C_c5 (W : Valuation τ sig (Elt F)) : after opsC W (main_c_5 : DevRef τ sig) = constantI S_ 32 56#32 := by
  simp only [opsC]; after_results
theorem D_v19 (W : Valuation τ sig (Elt F)) :
    after opsD W (main_v19 : DevRef τ sig) = Gates.floorDiv (W (main_v18 : DevRef τ sig)) (id (W (main_c_5 : DevRef τ sig))) := by
  simp only [opsD]; after_results; rfl
theorem E1_v34 (W : Valuation τ sig (Elt F)) : after opsE1 W (main_v34 : DevRef τ sig) = Gates.rowsCube (W (main_v15 : DevRef τ sig)) := by
  simp only [opsE1]; after_results; rfl
theorem E1_v35 (W : Valuation τ sig (Elt F)) : after opsE1 W (main_v35 : DevRef τ sig) = Gates.colsCube (W (main_v19 : DevRef τ sig)) := by
  simp only [opsE1]; after_results; rfl
theorem E2_v37 (W : Valuation τ sig (Elt F)) :
    after opsE2 W (main_v37 : DevRef τ sig) = Gates.enlarge (W (main_v11 : DevRef τ sig)) (Gates.pairs (W (main_v34 : DevRef τ sig)) (W (main_v35 : DevRef τ sig))) := by
  simp only [opsE2]; after_results; rfl
theorem E3_v42 (W : Valuation τ sig (Elt F)) : after opsE3 W (main_v42 : DevRef τ sig) = Gates.wrapLabel (W (main_arg1 : DevRef τ sig)) := by
  simp only [opsE3]; after_results; rfl
theorem E3_v44 (W : Valuation τ sig (Elt F)) : after opsE3 W (main_v44 : DevRef τ sig) = Gates.zeroCol := by
  simp only [opsE3]; after_results; rfl
theorem F1_v48 (W : Valuation τ sig (Elt F)) :
    after opsF1 W (main_v48 : DevRef τ sig) = Gates.pickC (W (main_v5 : DevRef τ sig)) (Gates.labelPairs (W (main_v42 : DevRef τ sig)) (W (main_v44 : DevRef τ sig))) := by
  simp only [opsF1]; after_results; rfl
theorem F2_v59 (W : Valuation τ sig (Elt F)) :
    after opsF2 W (main_v59 : DevRef τ sig) = Gates.pickS (W (main_v37 : DevRef τ sig)) (Gates.labelIdx (W (main_arg1 : DevRef τ sig))) := by
  simp only [opsF2]; after_results; rfl

/-! ## Buffers a run of stretches leaves alone -/

theorem keepCD_v15 (W : Valuation τ sig (Elt F)) : after opsD (after opsC W) (main_v15 : DevRef τ sig) = W (main_v15 : DevRef τ sig) := by
  simp only [← after_append]; unwritten
theorem keepBE1_v11 (W : Valuation τ sig (Elt F)) :
    after opsE1 (after opsD (after opsC (after opsB W))) (main_v11 : DevRef τ sig) = W (main_v11 : DevRef τ sig) := by
  simp only [← after_append]; unwritten
theorem keepBE3_v5 (W : Valuation τ sig (Elt F)) :
    after opsE3 (after opsE2 (after opsE1 (after opsD (after opsC (after opsB W))))) (main_v5 : DevRef τ sig) = W (main_v5 : DevRef τ sig) := by
  simp only [← after_append]; unwritten
theorem keepE3F1_v37 (W : Valuation τ sig (Elt F)) : after opsF1 (after opsE3 W) (main_v37 : DevRef τ sig) = W (main_v37 : DevRef τ sig) := by
  simp only [← after_append]; unwritten
theorem keepE3F1_arg1 (W : Valuation τ sig (Elt F)) : after opsF1 (after opsE3 W) (main_arg1 : DevRef τ sig) = W (main_arg1 : DevRef τ sig) := by
  simp only [← after_append]; unwritten
theorem keepF12_v5 (W : Valuation τ sig (Elt F)) : after opsF2 (after opsF1 W) (main_v5 : DevRef τ sig) = W (main_v5 : DevRef τ sig) := by
  simp only [← after_append]; unwritten
theorem keepF2_v37 (W : Valuation τ sig (Elt F)) : after opsF2 W (main_v37 : DevRef τ sig) = W (main_v37 : DevRef τ sig) := by unwritten
theorem keepF2_v48 (W : Valuation τ sig (Elt F)) : after opsF2 W (main_v48 : DevRef τ sig) = W (main_v48 : DevRef τ sig) := by unwritten
theorem keepAE2_arg1 (W : Valuation τ sig (Elt F)) :
    after opsE2 (after opsE1 (after opsD (after opsC (after opsB (after opsA W))))) (main_arg1 : DevRef τ sig) = W (main_arg1 : DevRef τ sig) := by
  simp only [← after_append]; unwritten

/-! ## The contents after each stretch, from contents `M` at the start -/

section Chain
variable (M : Valuation τ sig (Elt F))

/-- The contents after the first stretch, after the first two, … -/
abbrev W1 : Valuation τ sig (Elt F) := after opsA M
abbrev W2 : Valuation τ sig (Elt F) := after opsB (W1 M)
abbrev W3 : Valuation τ sig (Elt F) := after opsC (W2 M)
abbrev W4 : Valuation τ sig (Elt F) := after opsD (W3 M)
abbrev W5 : Valuation τ sig (Elt F) := after opsE1 (W4 M)
abbrev W6 : Valuation τ sig (Elt F) := after opsE2 (W5 M)
abbrev W7 : Valuation τ sig (Elt F) := after opsE3 (W6 M)
abbrev W8 : Valuation τ sig (Elt F) := after opsF1 (W7 M)
abbrev W9 : Valuation τ sig (Elt F) := after opsF2 (W8 M)

/-- The first floor division leaves the source positions. -/
theorem W2_v15 : W2 M (main_v15 : DevRef τ sig) = Gates.srcPos := by
  show after opsB (after opsA M) (main_v15 : DevRef τ sig) = _
  rw [B_v15, A_v14, A_c3]; rfl
/-- They are still there after the second. -/
theorem W4_v15 : W4 M (main_v15 : DevRef τ sig) = Gates.srcPos := by
  show after opsD (after opsC (W2 M)) (main_v15 : DevRef τ sig) = _
  rw [keepCD_v15]; exact W2_v15 M
/-- The second floor division leaves the same positions. -/
theorem W4_v19 : W4 M (main_v19 : DevRef τ sig) = Gates.srcPos := by
  show after opsD (after opsC (W2 M)) (main_v19 : DevRef τ sig) = _
  rw [D_v19, C_v18, C_c5]; rfl
theorem W5_v34 : W5 M (main_v34 : DevRef τ sig) = Gates.rowsCube Gates.srcPos := by
  show after opsE1 (W4 M) (main_v34 : DevRef τ sig) = _
  rw [E1_v34, W4_v15]
theorem W5_v35 : W5 M (main_v35 : DevRef τ sig) = Gates.colsCube Gates.srcPos := by
  show after opsE1 (W4 M) (main_v35 : DevRef τ sig) = _
  rw [E1_v35, W4_v19]
theorem W5_v11 : W5 M (main_v11 : DevRef τ sig) = Gates.spatLogistic (M (main_arg3 : DevRef τ sig)) := by
  show after opsE1 (after opsD (after opsC (after opsB (after opsA M)))) (main_v11 : DevRef τ sig) = _
  rw [keepBE1_v11, A_v11]
/-- The enlarged spatial table. -/
theorem W6_v37 : W6 M (main_v37 : DevRef τ sig) = Gates.spatTable (M (main_arg3 : DevRef τ sig)) := by
  show after opsE2 (W5 M) (main_v37 : DevRef τ sig) = _
  rw [E2_v37, W5_v11, W5_v34, W5_v35]; rfl
theorem W6_arg1 : W6 M (main_arg1 : DevRef τ sig) = M (main_arg1 : DevRef τ sig) := by
  show after opsE2 (after opsE1 (after opsD (after opsC (after opsB (after opsA M))))) (main_arg1 : DevRef τ sig) = _
  rw [keepAE2_arg1]
theorem W7_v42 : W7 M (main_v42 : DevRef τ sig) = Gates.wrapLabel (M (main_arg1 : DevRef τ sig)) := by
  show after opsE3 (W6 M) (main_v42 : DevRef τ sig) = _
  rw [E3_v42, W6_arg1]
theorem W7_v44 : W7 M (main_v44 : DevRef τ sig) = Gates.zeroCol := by
  show after opsE3 (W6 M) (main_v44 : DevRef τ sig) = _
  rw [E3_v44]
/-- The channel table, still there after the first window. -/
theorem W7_v5 : W7 M (main_v5 : DevRef τ sig) = Gates.chanTable (M (main_arg2 : DevRef τ sig)) := by
  show after opsE3 (after opsE2 (after opsE1 (after opsD (after opsC (after opsB (after opsA M)))))) (main_v5 : DevRef τ sig) = _
  rw [keepBE3_v5, A_v5]
/-- The channel gate. -/
theorem W8_v48 : W8 M (main_v48 : DevRef τ sig) = Gates.gateC (M (main_arg1 : DevRef τ sig)) (M (main_arg2 : DevRef τ sig)) := by
  show after opsF1 (W7 M) (main_v48 : DevRef τ sig) = _
  rw [F1_v48, W7_v5, W7_v42, W7_v44]; rfl
theorem W8_v37 : W8 M (main_v37 : DevRef τ sig) = Gates.spatTable (M (main_arg3 : DevRef τ sig)) := by
  show after opsF1 (after opsE3 (W6 M)) (main_v37 : DevRef τ sig) = _
  rw [keepE3F1_v37, W6_v37]
theorem W8_arg1 : W8 M (main_arg1 : DevRef τ sig) = M (main_arg1 : DevRef τ sig) := by
  show after opsF1 (after opsE3 (W6 M)) (main_arg1 : DevRef τ sig) = _
  rw [keepE3F1_arg1, W6_arg1]
/-- The spatial gate. -/
theorem W9_v59 : W9 M (main_v59 : DevRef τ sig) = Gates.gateS (M (main_arg1 : DevRef τ sig)) (M (main_arg3 : DevRef τ sig)) := by
  show after opsF2 (W8 M) (main_v59 : DevRef τ sig) = _
  rw [F2_v59, W8_v37, W8_arg1]; rfl
theorem W9_v48 : W9 M (main_v48 : DevRef τ sig) = Gates.gateC (M (main_arg1 : DevRef τ sig)) (M (main_arg2 : DevRef τ sig)) := by
  show after opsF2 (W8 M) (main_v48 : DevRef τ sig) = _
  rw [keepF2_v48, W8_v48]
theorem W9_v37 : W9 M (main_v37 : DevRef τ sig) = Gates.spatTable (M (main_arg3 : DevRef τ sig)) := by
  show after opsF2 (W8 M) (main_v37 : DevRef τ sig) = _
  rw [keepF2_v37, W8_v37]
theorem W9_v5 : W9 M (main_v5 : DevRef τ sig) = Gates.chanTable (M (main_arg2 : DevRef τ sig)) := by
  show after opsF2 (after opsF1 (W7 M)) (main_v5 : DevRef τ sig) = _
  rw [keepF12_v5, W7_v5]

end Chain

end Cert.KernelIdeal.Stages

end
-- ==== Proof.KernelHost.lean ====
/-
  What the kernel program's one region finds in the buffers its host operations wrote.

  Before its pallas_call the kernel program runs the very host operations the reference runs before it scales
  `x`. The region-entry contents (the generated frame's fold of its five lists of host operations over the launch
  memory) are the nine stretches' chain from the launch contents (`V_eq`), so when the region is entered the
  channel table's buffer holds `Gates.chanTable` of the channel argument, the enlarged spatial table's
  `Gates.spatTable` of the spatial argument, and the two operands the region stages beside `x` hold
  `Gates.gateC` and `Gates.gateS` of the label argument and those tables' arguments.
-/
import proofs.«141464_j45870250721474_1_alg».proof.Proof.Gen.KernelIdeal.Frame
import proofs.«141464_j45870250721474_1_alg».proof.Proof.KernelStretches
import proofs.«141464_j45870250721474_1_alg».proof.Proof.KernelStages
import proofs.«141464_j45870250721474_1_alg».proof.Proof.Gates
import Idealize.ShloMosaic.Lib.Pipeline.Frame

noncomputable section

namespace Cert.KernelIdeal.HostValue

open Idealize.ShloMosaic Idealize.ShloMosaic.TcCoe Idealize.SL.Sem Idealize.ShloMosaic.StableHlo
open Cert.KernelIdeal Cert.KernelIdeal.Gen Cert.KernelIdeal.HostStretches Cert.KernelIdeal.Stages

variable {F : FTy → Type} [FloatOps F]
variable (m : (ℓ : Loc nD τ sig) → Buf (Elt F) ℓ)

/-- The region-entry contents of core `c`: the nine stretches run one after the other from the launch contents. -/
theorem V_eq (c : Dev nD) (b : Ref sig .tc) : V m c b = W9 (fun b => m (c, b)) (b : DevRef τ sig) := by
  dsimp only [V, W9, W8, W7, W6, W5, W4, W3, W2, W1]
  rw [flat_eq]
  simp only [after_append]

/-- The channel table's buffer at the region's entry: the logistic function of the channel argument. -/
theorem V_chan (c : Dev nD) :
    (V m c main_v5 : (⟨S4x1x256x1x1, .f32⟩ : BufTy).Contents (Elt F)) = Gates.chanTable (m ((c : Thread nD τ).loc main_arg2)) :=
  (V_eq m c main_v5).trans (W9_v5 (fun b => m (c, b)))

/-- The enlarged spatial table's buffer at the region's entry. -/
theorem V_spat (c : Dev nD) :
    (V m c main_v37 : (⟨S4x1x1x56x56, .f32⟩ : BufTy).Contents (Elt F)) = Gates.spatTable (m ((c : Thread nD τ).loc main_arg3)) :=
  (V_eq m c main_v37).trans (W9_v37 (fun b => m (c, b)))

/-- The region's second operand: per sample the channel gate its label names. -/
theorem V_gateC (c : Dev nD) :
    (V m c main_v48 : (⟨S64x256x1x1, .f32⟩ : BufTy).Contents (Elt F)) = Gates.gateC (m ((c : Thread nD τ).loc main_arg1)) (m ((c : Thread nD τ).loc main_arg2)) :=
  (V_eq m c main_v48).trans (W9_v48 (fun b => m (c, b)))

/-- The region's third operand: per sample the spatial gate its label names. -/
theorem V_gateS (c : Dev nD) :
    (V m c main_v59 : (⟨S64x1x56x56, .f32⟩ : BufTy).Contents (Elt F)) = Gates.gateS (m ((c : Thread nD τ).loc main_arg1)) (m ((c : Thread nD τ).loc main_arg3)) :=
  (V_eq m c main_v59).trans (W9_v59 (fun b => m (c, b)))

end Cert.KernelIdeal.HostValue

end
-- ==== Proof.KernelValue.lean ====
/-
  The kernel program's result array, as one function of the arguments.

  The region's grid has 32 points; point `t` stages samples 2t and 2t + 1 of `x` [2,256,56,56], of the channel gate
  [2,256,1,1] and of the spatial gate [2,1,56,56], and its body stores x · gate_c · gate_s with each gate broadcast
  along the axes it lacks (the generated `canon3_eq`: the stored block is, entry by entry, the product of the three
  loads, the gates read at 0 on their unit axes). An input window's block at a point is its array, as the region finds it, read at the block's indices
  (`iblk0_apply` … `iblk2_apply`). All four windows move together, one block of two samples per point along the
  batch axis and whole on the others (`idx_facts`), so what point `t` writes back is block `t` of `Gates.scaled`
  of the three arrays as the region finds them (`flushed_eq`), and the 32 blocks tile the
  result array: sample n lies in block n / 2 (`cover`). Hence the array ends holding `Gates.scaled` of `x` and
  the two gates (`final`), and with the host values of the region's operands read back to the arguments, the
  kernel program's three results are the same functions of the arguments as the reference's (`run`).
-/
import proofs.«141464_j45870250721474_1_alg».proof.Proof.Gen.KernelIdeal.Frame
import proofs.«141464_j45870250721474_1_alg».proof.Proof.Gen.KernelIdeal.Value
import proofs.«141464_j45870250721474_1_alg».proof.Proof.Gates
import proofs.«141464_j45870250721474_1_alg».proof.Proof.KernelHost
import Idealize.ShloMosaic.Lib.ValueIdx
import Idealize.ShloMosaic.Lib.Pipeline.Value

noncomputable section

namespace Cert.KernelIdeal.Scaled

open Idealize.ShloMosaic Idealize.ShloMosaic.TcCoe Idealize.SL.Sem
open Idealize.ShloMosaic.Pipeline (Dat)
open Cert.KernelIdeal Cert.KernelIdeal.Gen Cert.KernelIdeal.Value

variable {F : FTy → Type} [FloatOps F]
variable (m : (ℓ : Loc nD τ sig) → Buf (Elt F) ℓ) (ρ : Dev nD → PrngReg)

theorem hz : (![0, 0, 0, 0] : Fin 4 → Nat) = fun _ => 0 := funext fun a => by fin_cases a <;> rfl

/-- `scaled` read at an index `i`: the entry of `x` there, times the channel gate at `i`'s sample and channel,
    times the spatial gate at `i`'s sample, row and column (`k1`, `k2`: those indices, 0 on the gates' unit axes). -/
theorem scaled_apply (x : (⟨S64x256x56x56, .f32⟩ : BufTy).Contents (Elt F)) (gc : (⟨S64x256x1x1, .f32⟩ : BufTy).Contents (Elt F)) (gs : (⟨S64x1x56x56, .f32⟩ : BufTy).Contents (Elt F))
    (i : S64x256x56x56.Idx) (k1 : S64x256x1x1.Idx) (k2 : S64x1x56x56.Idx)
    (h10 : (k1 0).val = (i 0).val) (h11 : (k1 1).val = (i 1).val)
    (h20 : (k2 0).val = (i 0).val) (h22 : (k2 2).val = (i 2).val) (h23 : (k2 3).val = (i 3).val) :
    Gates.scaled x gc gs i = FloatOps.mulf (FloatOps.mulf (x i) (gc k1)) (gs k2) := by
  have e1 : broadcastInDim S64x256x56x56 ![0, 1, 2, 3] Cert.ReferenceIdeal.Facts₀.bcast_S64x256x1x1_S64x256x56x56_0_1_2_3 gc i = gc k1 :=
    broadcastInDim_apply _ _ gc i k1 (fun a => match a with
      | ⟨0, _⟩ => by show (k1 0).val = (if (64 : Nat) = 1 then 0 else (i 0).val); rw [if_neg (by decide)]; exact h10
      | ⟨1, _⟩ => by show (k1 1).val = (if (256 : Nat) = 1 then 0 else (i 1).val); rw [if_neg (by decide)]; exact h11
      | ⟨2, _⟩ => by show (k1 2).val = (if (1 : Nat) = 1 then 0 else (i 2).val); rw [if_pos rfl]; have h : (k1 2).val < 1 := (k1 2).isLt; omega
      | ⟨3, _⟩ => by show (k1 3).val = (if (1 : Nat) = 1 then 0 else (i 3).val); rw [if_pos rfl]; have h : (k1 3).val < 1 := (k1 3).isLt; omega)
  have e2 : broadcastInDim S64x256x56x56 ![0, 1, 2, 3] Cert.ReferenceIdeal.Facts₀.bcast_S64x1x56x56_S64x256x56x56_0_1_2_3 gs i = gs k2 :=
    broadcastInDim_apply _ _ gs i k2 (fun a => match a with
      | ⟨0, _⟩ => by show (k2 0).val = (if (64 : Nat) = 1 then 0 else (i 0).val); rw [if_neg (by decide)]; exact h20
      | ⟨1, _⟩ => by show (k2 1).val = (if (1 : Nat) = 1 then 0 else (i 1).val); rw [if_pos rfl]; have h : (k2 1).val < 1 := (k2 1).isLt; omega
      | ⟨2, _⟩ => by show (k2 2).val = (if (56 : Nat) = 1 then 0 else (i 2).val); rw [if_neg (by decide)]; exact h22
      | ⟨3, _⟩ => by show (k2 3).val = (if (56 : Nat) = 1 then 0 else (i 3).val); rw [if_neg (by decide)]; exact h23)
  unfold Gates.scaled
  show FloatOps.mulf (FloatOps.mulf (x i) (broadcastInDim S64x256x56x56 ![0, 1, 2, 3] Cert.ReferenceIdeal.Facts₀.bcast_S64x256x1x1_S64x256x56x56_0_1_2_3 gc i))
      (broadcastInDim S64x256x56x56 ![0, 1, 2, 3] Cert.ReferenceIdeal.Facts₀.bcast_S64x1x56x56_S64x256x56x56_0_1_2_3 gs i) = _
  rw [e1, e2]

/-- The printed index maps, decided over the grid: every window's block index at point `t` is `t` along the batch
    axis and 0 along the others. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- The first window's block at point `t`, read at `y`: `x` as the region finds it, at the block's index for `y`. -/
theorem iblk0_apply (c : Dev nD) (t : Fin cfg0.N) (y : S2x256x56x56.Idx) :
    iblk m c 0 t y = V m c main_arg0 (((cfg0.win 0).blk t).view.emb y) := by
  unfold iblk
  rw [View.read_apply]
  generalize V m c = W
  exact eq_of_heq ((cast_heq _ _).trans (heq_of_eq rfl))

/-- The second window's block at point `t`, read at `y`: the channel gate's array at the block's index for `y`. -/
theorem iblk1_apply (c : Dev nD) (t : Fin cfg0.N) (y : S2x256x1x1.Idx) :
    iblk m c 1 t y = V m c main_v48 (((cfg0.win 1).blk t).view.emb y) := by
  unfold iblk
  rw [View.read_apply]
  generalize V m c = W
  exact eq_of_heq ((cast_heq _ _).trans (heq_of_eq rfl))

/-- The third window's block at point `t`, read at `y`: the spatial gate's array at the block's index for `y`. -/
theorem iblk2_apply (c : Dev nD) (t : Fin cfg0.N) (y : S2x1x56x56.Idx) :
    iblk m c 2 t y = V m c main_v59 (((cfg0.win 2).blk t).view.emb y) := by
  unfold iblk
  rw [View.read_apply]
  generalize V m c = W
  exact eq_of_heq ((cast_heq _ _).trans (heq_of_eq rfl))

/-- What point `t` writes back is block `t` of `scaled` of the three arrays the region stages. -/
theorem flushed_eq (c : Dev nD) (t : Fin cfg0.N) :
    (dats m 0 c).flushed 3 t
      = ((cfg0.win 3).blk t).view.read (Elt F) (Gates.scaled (V m c main_arg0) (V m c main_v48) (V m c main_v59)) := by
  rw [Value.flushed3]
  unfold out0_3
  simp only [View.ld_unit_zero (S := S2x256x56x56) hz, View.ld_unit_zero (S := S2x256x1x1) hz, View.ld_unit_zero (S := S2x1x56x56) hz]
  funext j
  show View.canon [⟨r0_0, k0_pay1 (iblk m c 0 t) (iblk m c 1 t) (iblk m c 2 t)⟩] j
    = Gates.scaled (V m c main_arg0) (V m c main_v48) (V m c main_v59) (((cfg0.win 3).blk t).view.emb j)
  refine (Value.canon3_eq (iblk m c 0 t) (iblk m c 1 t) (iblk m c 2 t) j).trans ?_
  obtain ⟨a0, a1, a2, a3, b0, b1, b2, b3, c0, c1, c2, c3, d0, d1, d2, d3⟩ := idx_facts t
  have hj0 : (j 0).val < 2 := (j 0).isLt
  have hj1 : (j 1).val < 256 := (j 1).isLt
  have hj2 : (j 2).val < 56 := (j 2).isLt
  have hj3 : (j 3).val < 56 := (j 3).isLt
  have h0 : ((cfg0.win 0).blk t).view.emb (ix3_0 j) = ((cfg0.win 3).blk t).view.emb j := by
    funext a; apply Fin.ext
    match a with
    | ⟨0, _⟩ => show win0_0.index t (0 : Fin 4) * 2 + 1 * (j 0).val = win0_3.index t (0 : Fin 4) * 2 + 1 * (j 0).val; omega
    | ⟨1, _⟩ => show win0_0.index t (1 : Fin 4) * 256 + 1 * (j 1).val = win0_3.index t (1 : Fin 4) * 256 + 1 * (j 1).val; omega
    | ⟨2, _⟩ => show win0_0.index t (2 : Fin 4) * 56 + 1 * (j 2).val = win0_3.index t (2 : Fin 4) * 56 + 1 * (j 2).val; omega
    | ⟨3, _⟩ => show win0_0.index t (3 : Fin 4) * 56 + 1 * (j 3).val = win0_3.index t (3 : Fin 4) * 56 + 1 * (j 3).val; omega
  refine Eq.trans ?_ (scaled_apply (V m c main_arg0) (V m c main_v48) (V m c main_v59) (((cfg0.win 3).blk t).view.emb j)
    (((cfg0.win 1).blk t).view.emb (ix3_1 j)) (((cfg0.win 2).blk t).view.emb (ix3_2 j)) ?_ ?_ ?_ ?_ ?_).symm
  · show FloatOps.mulf (FloatOps.mulf (iblk m c 0 t (ix3_0 j)) (iblk m c 1 t (ix3_1 j))) (iblk m c 2 t (ix3_2 j)) = _
    rw [iblk0_apply m c t (ix3_0 j), iblk1_apply m c t (ix3_1 j), iblk2_apply m c t (ix3_2 j), h0]
  · show win0_1.index t (0 : Fin 4) * 2 + 1 * (j 0).val = win0_3.index t (0 : Fin 4) * 2 + 1 * (j 0).val; omega
  · show win0_1.index t (1 : Fin 4) * 256 + 1 * (j 1).val = win0_3.index t (1 : Fin 4) * 256 + 1 * (j 1).val; omega
  · show win0_2.index t (0 : Fin 4) * 2 + 1 * (j 0).val = win0_3.index t (0 : Fin 4) * 2 + 1 * (j 0).val; omega
  · show win0_2.index t (2 : Fin 4) * 56 + 1 * (j 2).val = win0_3.index t (2 : Fin 4) * 56 + 1 * (j 2).val; omega
  · show win0_2.index t (3 : Fin 4) * 56 + 1 * (j 3).val = win0_3.index t (3 : Fin 4) * 56 + 1 * (j 3).val; omega

/-- An index of the result array is in point `t`'s block iff each coordinate is in the block's range on its axis. -/
theorem mem_blk (t : Fin cfg0.N) (i : S64x256x56x56.Idx) :
    i ∈ ((cfg0.win 3).blk t).view.set ↔ ∀ a : Fin 4, win0_3.index t a * S2x256x56x56.size a ≤ (i a).val ∧ (i a).val < win0_3.index t a * S2x256x56x56.size a + S2x256x56x56.size a := by
  show i ∈ ((View.whole main_v60).slice (win0_3.rect t)).set ↔ _
  rw [View.set_slice_whole, Rect.mem_set_unit]
  exact Iff.rfl

/-- The 32 blocks tile the result array: sample `n` lies in the block of point `n / 2`. -/
theorem cover (i : S64x256x56x56.Idx) : ∃ t : Fin cfg0.N, (cfg0.win 3).flush t = true ∧ i ∈ ((cfg0.win 3).blk t).view.set := by
  have hi0 : (i 0).val < 64 := (i 0).isLt
  have hi1 : (i 1).val < 256 := (i 1).isLt
  have hi2 : (i 2).val < 56 := (i 2).isLt
  have hi3 : (i 3).val < 56 := (i 3).isLt
  have hN : cfg0.N = 32 := N_0
  have hlt : (i 0).val / 2 < cfg0.N := by omega
  obtain ⟨-, -, -, -, -, -, -, -, -, -, -, -, d0, d1, d2, d3⟩ := idx_facts ⟨(i 0).val / 2, hlt⟩
  have d0' : win0_3.index ⟨(i 0).val / 2, hlt⟩ (0 : Fin 4) = (i 0).val / 2 := d0
  refine ⟨⟨(i 0).val / 2, hlt⟩, flush0_3 _, ?_⟩
  rw [mem_blk]
  intro a
  match a with
  | ⟨0, _⟩ => show win0_3.index ⟨(i 0).val / 2, hlt⟩ (0 : Fin 4) * 2 ≤ (i 0).val ∧ (i 0).val < win0_3.index ⟨(i 0).val / 2, hlt⟩ (0 : Fin 4) * 2 + 2; omega
  | ⟨1, _⟩ => show win0_3.index ⟨(i 0).val / 2, hlt⟩ (1 : Fin 4) * 256 ≤ (i 1).val ∧ (i 1).val < win0_3.index ⟨(i 0).val / 2, hlt⟩ (1 : Fin 4) * 256 + 256; omega
  | ⟨2, _⟩ => show win0_3.index ⟨(i 0).val / 2, hlt⟩ (2 : Fin 4) * 56 ≤ (i 2).val ∧ (i 2).val < win0_3.index ⟨(i 0).val / 2, hlt⟩ (2 : Fin 4) * 56 + 56; omega
  | ⟨3, _⟩ => show win0_3.index ⟨(i 0).val / 2, hlt⟩ (3 : Fin 4) * 56 ≤ (i 3).val ∧ (i 3).val < win0_3.index ⟨(i 0).val / 2, hlt⟩ (3 : Fin 4) * 56 + 56; omega

/-- The result array after the run: `scaled` of the three arrays the region stages. -/
theorem final (c : Dev nD) :
    (dats m 0 c).arrAt 3 cfg0.N = Gates.scaled (V m c main_arg0) (V m c main_v48) (V m c main_v59) :=
  (dats m 0 c).arrAt_eq_of_cover 3 _ (fun t _ => flushed_eq m c t) cover

/-- The frame run, read: the result array at `x` scaled by the two gates of the arguments, the two tables' buffers at
    the tables of the arguments, the arguments unchanged. -/
theorem run : θ_run defs (onTc (τ := τ) (main (F := F))) ⟨m, fun _ => 0, ρ⟩ fun r => ∀ c : Dev nD,
      r.2.mem ((c : Thread nD τ).loc main_v60)
        = Gates.scaled (m ((c : Thread nD τ).loc main_arg0))
            (Gates.gateC (m ((c : Thread nD τ).loc main_arg1)) (m ((c : Thread nD τ).loc main_arg2)))
            (Gates.gateS (m ((c : Thread nD τ).loc main_arg1)) (m ((c : Thread nD τ).loc main_arg3)))
      ∧ r.2.mem ((c : Thread nD τ).loc main_v5) = Gates.chanTable (m ((c : Thread nD τ).loc main_arg2))
      ∧ r.2.mem ((c : Thread nD τ).loc main_v37) = Gates.spatTable (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨(post3 m r h c).trans ((final m c).trans (by
          rw [V_main_arg0 m c, Cert.KernelIdeal.HostValue.V_gateC m c, Cert.KernelIdeal.HostValue.V_gateS m c])),
        ((h c).2 main_v5 (Pipeline.mem_restRefs_of main_v5 (by decide) (by decide))).trans (Cert.KernelIdeal.HostValue.V_chan m c),
        ((h c).2 main_v37 (Pipeline.mem_restRefs_of main_v37 (by decide) (by decide))).trans (Cert.KernelIdeal.HostValue.V_spat m c),
        kept_main_arg0 m r h c, kept_main_arg1 m r h c, kept_main_arg2 m r h c, kept_main_arg3 m r h c⟩)
    (run_main m ρ)

end Cert.KernelIdeal.Scaled

end
-- ==== Proof.lean ====
/-
  The kernel scales `x` [64,256,56,56] by two gates chosen per sample by an integer label: a channel gate — the row
  its label names of the logistic function of a [4,1,256,1,1] table — and a spatial gate — the plane its label names
  of the logistic function of a [4,1,1,28,28] table enlarged to 56 × 56 by nearest neighbour. Both programs build the
  two gates by the same host operations; the reference then broadcasts each gate along the axes it lacks and
  multiplies, while the kernel program hands `x` and the two gates to one pallas_call whose 32 grid points each
  stage two samples and store x · gate_c · gate_s.

  At the extended reals the two results are the same function of the arguments, entry by entry:
  x (n, c, h, w) · gate_c (n, c) · gate_s (n, h, w), the products grouped the same way on both sides, so no law
  of arithmetic is needed and the precondition is never opened. The proof reads each program's host operations a
  stretch at a time as the named steps of `Gates` (RefStages, KernelStages), reads the kernel's result array off
  its frame run block by block (KernelValue: every block is the matching block of `Gates.scaled`, and the 32 blocks
  tile the array), and sets the two runs side by side (`algebraic`). The two other results, the channel table and
  the enlarged spatial table, are host values on both sides. The three frames are the generated frames of the
  kernel's two programs and the reference's run with its results dropped; the ideal pass rewrote nothing, so
  `preserves` is trivial.
-/
import proofs.«141464_j45870250721474_1_alg».proof.Defs
import proofs.«141464_j45870250721474_1_alg».proof.Proof.Gen.Kernel
import proofs.«141464_j45870250721474_1_alg».proof.Proof.Gen.Kernel.Skeleton
import proofs.«141464_j45870250721474_1_alg».proof.Proof.Gen.Kernel.Launch
import proofs.«141464_j45870250721474_1_alg».proof.Proof.Gen.Kernel.Points
import proofs.«141464_j45870250721474_1_alg».proof.Proof.Gen.Kernel.Frame
import proofs.«141464_j45870250721474_1_alg».proof.Proof.Gen.KernelIdeal
import proofs.«141464_j45870250721474_1_alg».proof.Proof.Gen.KernelIdeal.Skeleton
import proofs.«141464_j45870250721474_1_alg».proof.Proof.Gen.KernelIdeal.Launch
import proofs.«141464_j45870250721474_1_alg».proof.Proof.Gen.KernelIdeal.Points
import proofs.«141464_j45870250721474_1_alg».proof.Proof.Gen.KernelIdeal.Frame
import proofs.«141464_j45870250721474_1_alg».proof.Proof.Gen.ReferenceIdeal
import proofs.«141464_j45870250721474_1_alg».proof.Proof.Gen.Pre_finite_inputs
import proofs.«141464_j45870250721474_1_alg».proof.Proof.RefRead
import proofs.«141464_j45870250721474_1_alg».proof.Proof.KernelValue
import Idealize.ShloMosaic.Adequacy
import Idealize.ShloMosaic.Init

noncomputable section

namespace Cert.Proof

open Idealize.ShloMosaic Idealize.SL.Sem

/-- The word-level kernel program runs and leaves its arguments as they were: its generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as they were: its run read back, the results dropped. -/
theorem frame_reference : Cert.frame_ReferenceIdeal := fun m ρ _ =>
  (θ_run Cert.ReferenceIdeal.defs _ _).mono
    (fun _ h c => ⟨(h c).2.2.2.1, (h c).2.2.2.2.1, (h c).2.2.2.2.2.1, (h c).2.2.2.2.2.2⟩)
    (Cert.ReferenceIdeal.RefRead.run (F := Ideal) m ρ)

/-- From memories that agree on the arguments both idealized programs end with the scaled `x`, the channel table
    and the enlarged spatial table at the same functions of the arguments. -/
theorem algebraic : Cert.algebraic_KernelIdeal_ReferenceIdeal := by
  intro m ρ m' ρ' _ hagree
  refine ⟨_, _, _, Cert.KernelIdeal.Scaled.run (F := Ideal) m ρ, ?_⟩
  refine (θ_run Cert.ReferenceIdeal.defs _ _).mono (fun _ h c => ?_) (Cert.ReferenceIdeal.RefRead.run (F := Ideal) m' ρ')
  obtain ⟨h0, h1, h2, h3, h4, h5, h6⟩ := h c
  obtain ⟨e0, e1, e2, e3⟩ := hagree c
  refine ⟨h0.trans ?_, h1.trans ?_, h2.trans ?_, h3, h4, h5, h6⟩
  · rw [e0, e1, e2, e3]
  · rw [e2]
  · rw [e3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
